-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S65536x2048 : Shape := ⟨2, ![65536, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S256 : S_.BroadcastsInDim S256 (![] : Fin 0 → Fin S256.rank)
  reducesTo_S256_S_d0 : S256.ReducesTo [0] S_
  reducesTo_S256x2048_S256_d1 : S256x2048.ReducesTo [1] S256

variable [Facts]

def fn_part1 {F : FTy → Type} [FloatOps F] (main_v15 : IVec S_ 1) (main_v16 : FVec F S256x2048 .f32) : IVec S_ 1 :=
  let main_cst_5 : FVec F S_ .f32 := constant S_ .f32 0x00000000#32
  let main_v17 : FVec F S256 .f32 := (fun x v => Host.reduceAdd x v reducesTo_S256x2048_S256_d1 h_S_) main_v16 main_cst_5
  let main_cst_6 : FVec F S_ .f32 := constant S_ .f32 0x00000000#32
  let main_v18 : FVec F S256 .f32 := broadcastInDim S256 ![] bcast_S_S256 main_cst_6
  let main_v19 : IVec S256 1 := cmpf .ogt main_v17 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v15 main_v20
  main_v21

def fn {F : FTy → Type} [FloatOps F] (main_arg0 : FVec F S256x2048 .f32) (main_arg1 : IVec S256 32) (main_arg2 : IVec S256 32) (main_arg3 : FVec F S65536x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S65536x2048 .f32 := Host.absf main_arg3
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg1 main_v9
  let main_c_3 : IVec S_ 32 := constantI S_ 32 65536#32
  let main_v11 : IVec S256 32 := broadcastInDim S256 ![] bcast_S_S256 main_c_3
  let main_v12 : IVec S256 1 := cmpi .slt main_arg1 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  let main_v16 : FVec F S256x2048 .f32 := mulf main_arg0 main_arg0
  fn_part1 (F := F) main_v15 main_v16
-- ==== Kernel.lean ====
abbrev S256x2048 : Shape := ⟨2, ![256, 2048]⟩
abbrev S256 : Shape := ⟨1, ![256]⟩
abbrev S65536x2048 : Shape := ⟨2, ![65536, 2048]⟩
abbrev S_ : Shape := ⟨0, ![]⟩
abbrev S256x1 : Shape := ⟨2, ![256, 1]⟩
abbrev S2x256x3 : Shape := ⟨3, ![2, 256, 3]⟩
abbrev S1024x2048 : Shape := ⟨2, ![1024, 2048]⟩
abbrev S1x256x3 : Shape := ⟨3, ![1, 256, 3]⟩
abbrev S256x1024 : Shape := ⟨2, ![256, 1024]⟩
abbrev S256x3 : Shape := ⟨2, ![256, 3]⟩
abbrev S1x256x1 : Shape := ⟨3, ![1, 256, 1]⟩

abbrev nBuf : Space → Nat
  | .hbm => 43
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S256, .i32⟩
  | .hbm, ⟨3, _⟩ => ⟨S65536x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2048, .f32⟩
  | .hbm, ⟨10, _⟩ => ⟨S256x2048, .f32⟩
  | .hbm, ⟨11, _⟩ => ⟨S256x1, .i32⟩
  | .hbm, ⟨12, _⟩ => ⟨S2x256x3, .f32⟩
  | .hbm, ⟨13, _⟩ => ⟨S1x256x1, .f32⟩
  | .hbm, ⟨14, _⟩ => ⟨S256x1, .f32⟩
  | .hbm, ⟨15, _⟩ => ⟨S1x256x1, .f32⟩
  | .hbm, ⟨16, _⟩ => ⟨S256x1, .f32⟩
  | .hbm, ⟨17, _⟩ => ⟨S1x256x1, .f32⟩
  | .hbm, ⟨18, _⟩ => ⟨S256x1, .f32⟩
  | .hbm, ⟨19, _⟩ => ⟨S1x256x1, .f32⟩
  | .hbm, ⟨20, _⟩ => ⟨S256x1, .f32⟩
  | .hbm, ⟨21, _⟩ => ⟨S1x256x1, .f32⟩
  | .hbm, ⟨22, _⟩ => ⟨S256x1, .f32⟩
  | .hbm, ⟨23, _⟩ => ⟨S1x256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S256x2048, .f32⟩
  | .local _ .vmem, ⟨1, _⟩ => ⟨S1024x2048, .f32⟩
  | .local _ .vmem, ⟨2, _⟩ => ⟨S1024x2048, .f32⟩
  | .local _ .vmem, ⟨3, _⟩ => ⟨S256x1, .i32⟩
  | .local _ .vmem, ⟨4, _⟩ => ⟨S1x256x3, .f32⟩
  | .local _ .vmem, ⟨5, _⟩ => ⟨S1x256x3, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v51 : BitVec 1 := Scalar.cmpi .eq arg1 c31_i32
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  iota_S256x1024_d1_w32 : S256x1024.Iotas .tc 32 [1]
  broadcasts_S256x1_S256x1024 : S256x1.Broadcasts S256x1024
  reduces_S256x1024_S256 : S256x1024.Reduces [1] S256
  concatenates_S256x1_S256x1_S256x1_S256x3_d1 : Shape.Concatenates [S256x1, S256x1, S256x1] S256x3 1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  slices_S2x256x3_S1x256x1_0_0_0 : S2x256x3.Slices ![0, 0, 0] S1x256x1
  shapeCasts_S1x256x1_S256x1 : S1x256x1.ShapeCasts S256x1
  slices_S2x256x3_S1x256x1_0_0_1 : S2x256x3.Slices ![0, 0, 1] S1x256x1
  slices_S2x256x3_S1x256x1_0_0_2 : S2x256x3.Slices ![0, 0, 2] S1x256x1
  slices_S2x256x3_S1x256x1_1_0_0 : S2x256x3.Slices ![1, 0, 0] S1x256x1
  slices_S2x256x3_S1x256x1_1_0_1 : S2x256x3.Slices ![1, 0, 1] S1x256x1
  slices_S2x256x3_S1x256x1_1_0_2 : S2x256x3.Slices ![1, 0, 2] S1x256x1
  shapeCasts_S256x1_S256 : S256x1.ShapeCasts S256
  reducesTo_S256_S_d0 : S256.ReducesTo [0] S_
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3.size a ≤ S2x256x3.size a
  hwx0_3 : ∀ i : grid0.Coords, EltTy.bits .f32 = 32 ∨ (Rect.block (s := S2x256x3) S1x256x3.size (cc0_transform_3 i) (hinb0_3 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v2) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x2048 : Shape := ⟨2, ![256, 2048]⟩
abbrev S256 : Shape := ⟨1, ![256]⟩
abbrev S65536x2048 : Shape := ⟨2, ![65536, 2048]⟩
abbrev S_ : Shape := ⟨0, ![]⟩
abbrev S256x1 : Shape := ⟨2, ![256, 1]⟩
abbrev S2048x65536 : Shape := ⟨2, ![2048, 65536]⟩
abbrev S256x65536 : Shape := ⟨2, ![256, 65536]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256, .i32⟩
  | .hbm, ⟨2, _⟩ => ⟨S256, .i32⟩
  | .hbm, ⟨3, _⟩ => ⟨S65536x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S256x2048, .f32⟩
  | .hbm, ⟨10, _⟩ => ⟨S256x2048, .f32⟩
  | .hbm, ⟨11, _⟩ => ⟨S2048x65536, .f32⟩
  | .hbm, ⟨12, _⟩ => ⟨S256x65536, .f32⟩
  | .hbm, ⟨13, _⟩ => ⟨S_, .f32⟩
  | .hbm, ⟨14, _⟩ => ⟨S256x65536, .f32⟩
  | .hbm, ⟨15, _⟩ => ⟨S256x65536, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256x1, .f32⟩
  | .hbm, ⟨22, _⟩ => ⟨S256x65536, .f32⟩
  | .hbm, ⟨23, _⟩ => ⟨S256x65536, .f32⟩
  | .hbm, ⟨24, _⟩ => ⟨S256x65536, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S256x1, .f32⟩
  | .hbm, ⟨29, _⟩ => ⟨S256x65536, .f32⟩
  | .hbm, ⟨30, _⟩ => ⟨S256x65536, .f32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S256x1, .i32⟩
  | .hbm, ⟨39, _⟩ => ⟨S256x1x1, .i32⟩
  | .hbm, ⟨40, _⟩ => ⟨S1, .i32⟩
  | .hbm, ⟨41, _⟩ => ⟨S_, .i32⟩
  | .hbm, ⟨42, _⟩ => ⟨S256x1x1, .i32⟩
  | .hbm, ⟨43, _⟩ => ⟨S256x1x1, .i1⟩
  | .hbm, ⟨44, _⟩ => ⟨S1x1x1, .i32⟩
  | .hbm, ⟨45, _⟩ => ⟨S256x1x1, .i32⟩
  | .hbm, ⟨46, _⟩ => ⟨S256x1x1, .i1⟩
  | .hbm, ⟨47, _⟩ => ⟨S256x1x1, .i1⟩
  | .hbm, ⟨48, _⟩ => ⟨S_, .i1⟩
  | .hbm, ⟨49, _⟩ => ⟨S256x1, .i1⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_0 : Ref sig .tc := ⟨.hbm, 56, rfl⟩
abbrev main_v12 : Ref sig .tc := ⟨.hbm, 57, rfl⟩
abbrev main_cst_1 : Ref sig .tc := ⟨.hbm, 58, rfl⟩
abbrev main_v13 : Ref sig .tc := ⟨.hbm, 59, rfl⟩

abbrev nD : Nat := 1
abbrev τ : Topo := Topo.v7x

variable {F : FTy → Type} [FloatOps F]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  transposes_S65536x2048_S2048x65536_1_0 : S65536x2048.Transposes [1, 0] S2048x65536
  bcast_S_S256x65536 : S_.BroadcastsInDim S256x65536 (![] : Fin 0 → Fin S256x65536.rank)
  reducesTo_S256x65536_S256_d1 : S256x65536.ReducesTo [1] S256
  bcast_S_S256 : S_.BroadcastsInDim S256 (![] : Fin 0 → Fin S256.rank)
  bcast_S256x1_S256x65536_0_1 : S256x1.BroadcastsInDim S256x65536 (![0, 1] : Fin 2 → Fin S256x65536.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  reducesTo_S256_S_d0 : S256.ReducesTo [0] S_
  dot_S256x2048_S2048x65536_S256x65536_1_0_0_1_n_n_wf : DotDims.WF S256x2048 S2048x65536 S256x65536 [1] [0] [0] [1] [] []
  gather_S256x65536_S256x1x1_S256x1_n_1_0_0_1_2_11_wf : GatherDims.WF S256x65536 S256x1x1 S256x1 [] [1] [0] [1] [0] 2 ![1, 1]

variable [Facts₀]

def dot_S256x2048_S2048x65536_S256x65536_1_0_0_1_n_n : DotDims S256x2048 S2048x65536 S256x65536 where
  lhsContracting := [1]
  rhsContracting := [0]
  lhsNonContracting := [0]
  rhsNonContracting := [1]
  lhsBatch := []
  rhsBatch := []
  wf := dot_S256x2048_S2048x65536_S256x65536_1_0_0_1_n_n_wf
def gather_S256x65536_S256x1x1_S256x1_n_1_0_0_1_2_11 : GatherDims S256x65536 S256x1x1 S256x1 where
  offsetDims := []
  collapsedSliceDims := [1]
  operandBatchingDims := [0]
  startIndicesBatchingDims := [0]
  startIndexMap := [1]
  indexVectorDim := 2
  sliceSizes := ![1, 1]
  wf := gather_S256x65536_S256x1x1_S256x1_n_1_0_0_1_2_11_wf

class Facts : Prop extends Facts₀ where

variable [Facts]
-- ==== Proof.Stream.lean ====
/-
  Cross entropy of temperature-scaled similarity logits, computed in one pass over the columns.

  For one row, write `s j` for its logit against column `j`. The reference takes the row's maximum `M`, the sum
  `Z = ∑ j, exp (s j - M)`, and returns `-((s t - M) - log Z)` at the target column `t`.

  The kernel never holds a whole row. It walks the columns block by block and carries three numbers:
  the maximum `m` of the logits seen so far, the sum `l` of `exp (s j - m)` over the logits seen so far, and the
  sum `t` of the logits whose column is the target's. When a block raises the maximum from `m` to `m'`, every term
  already inside `l` is off by the factor `exp (m - m')`, because `exp (s - m) * exp (m - m') = exp (s - m')`; so
  the step multiplies `l` by that factor before adding the new block's terms. Before the first block the
  maximum is `-∞` and `exp (-∞ - m') = 0` wipes the (zero) sum, which is why no special first step is needed.
  Two such walks, each over half of the columns, are merged by the same rescaling.

  This file states the step, the walk and the two closing formulas over the extended reals, index by index,
  and imports no program.
-/
import Idealize.ShloMosaic.PureOps.Ideal
import Idealize.ShloMosaic.Lib.ValueIdx

noncomputable section

namespace Cert.Stream

open Idealize.ShloMosaic

/-- What a row carries between blocks: the running maximum, the sum of exponentials shifted by it, and the
    target's logit as far as it has been met. -/
abbrev St := EReal × EReal × EReal

/-- Before any block: maximum `-∞`, both sums empty. -/
def st0 : St := (⊥, 0, 0)

/-- The largest logit of one block (`-∞` for an empty block). -/
def blockMax {n : ℕ} (S : Fin n → EReal) : EReal := (Finset.univ : Finset (Fin n)).fold max ⊥ S

/-- One block absorbed into the state. `S j` is the block's logit at its column `j`; `hit j` says that column is
    the row's target. -/
def step {n : ℕ} (S : Fin n → EReal) (hit : Fin n → Prop) [DecidablePred hit] (st : St) : St :=
  (max st.1 (blockMax S),
   st.2.1 * Ideal.exp (st.1 - max st.1 (blockMax S)) + ∑ j, Ideal.exp (S j - max st.1 (blockMax S)),
   st.2.2 + ∑ j, if hit j then S j else 0)

/-- The state after blocks `0, …, k` of a walk, from the empty state. -/
def walk {n : ℕ} (S : ℕ → Fin n → EReal) (hit : ℕ → Fin n → Prop) [∀ k, DecidablePred (hit k)] : ℕ → St
  | 0 => step (S 0) (hit 0) st0
  | k + 1 => step (S (k + 1)) (hit (k + 1)) (walk S hit k)

/-- Two walks merged into the row's loss: the maxima are joined, each sum is rescaled to the joint maximum,
    and the loss is `-(t - (m + log l))`. -/
def merged (a b : St) : EReal :=
  -((a.2.2 + b.2.2)
      - (max a.1 b.1
          + Ideal.log (a.2.1 * Ideal.exp (a.1 - max a.1 b.1) + b.2.1 * Ideal.exp (b.1 - max a.1 b.1))))

/-- The reference's loss of a row with logits `s` over all `N` columns and target column `t`. -/
def direct {N : ℕ} (s : Fin N → EReal) (t : Fin N) : EReal :=
  -((s t - max ⊥ ((Finset.univ : Finset (Fin N)).fold max ⊥ s))
      - Ideal.log (∑ j, Ideal.exp (s j - max ⊥ ((Finset.univ : Finset (Fin N)).fold max ⊥ s))))

end Cert.Stream

end
-- ==== Proof.Rows.lean ====
/-
  The two programs, row by row.

  Both normalise the rows of `inputs` to unit length with the same operations and both end by averaging 256
  per-row losses with the same operations; between the two they differ only in how a row's loss is obtained
  from its 65536 logits. This file names the shared ends once (`normalize`, `meanLoss`), states the logit of a
  row against a row of the bank, numbers the columns the way the kernel's grid visits them — core `c` of two,
  block `k` of 32, position `jj` of 1024: column `(c * 32 + k) * 1024 + jj` — and writes each program's per-row
  loss over the walk and the closing formulas of `Stream`.
-/
import proofs.«420116_j37349035606124_2_alg».proof.Proof.Stream
import Idealize.ShloMosaic.PureOps.Ideal
import Idealize.ShloMosaic.Lib.ValueIdx

noncomputable section

namespace Cert.Rows

open Idealize.ShloMosaic Idealize.ShloMosaic.ValueIdx Cert.Stream

/-- `inputs`: 256 rows of 2048 features. -/
abbrev SIn : Shape := ⟨2, ![256, 2048]⟩
/-- The bank: 65536 rows of 2048 features. -/
abbrev SBank : Shape := ⟨2, ![65536, 2048]⟩
/-- One number per row. -/
abbrev SRow : Shape := ⟨1, ![256]⟩
/-- One number per row, as a column. -/
abbrev SCol : Shape := ⟨2, ![256, 1]⟩
/-- A single number. -/
abbrev S0 : Shape := ⟨0, ![]⟩

theorem rowsTo : SIn.ReducesTo [1] SRow := by decide
theorem one_pos : 0 < S0.numel := by decide
theorem toCol : SRow.BroadcastsInDim SCol (![0] : Fin 1 → Fin SCol.rank) := by decide
theorem toIn : SCol.BroadcastsInDim SIn (![0, 1] : Fin 2 → Fin SIn.rank) := by decide
theorem allTo : SRow.ReducesTo [0] S0 := by decide

/-- Each row divided by its Euclidean length `√(∑ a²)`: the operations both programs open with. -/
def normalize (a : FVec Ideal SIn .f32) : FVec Ideal SIn .f32 :=
  Host.divf a (broadcastInDim SIn ![0, 1] toIn (Host.sqrt (broadcastInDim SCol ![0] toCol
    (Host.reduceAdd (mulf a a) (constant (F := Ideal) S0 .f32 0x00000000#32) rowsTo one_pos))))

/-- The average of the 256 per-row losses: the operations both programs close with. -/
def meanLoss (v : FVec Ideal SRow .f32) : FVec Ideal S0 .f32 :=
  Host.divf (Host.reduceAdd v (constant (F := Ideal) S0 .f32 0x00000000#32) allTo one_pos)
    (constant (F := Ideal) S0 .f32 0x43800000#32)

/-- The reciprocal of the temperature as the reference's own divisor `13421773 / 2^28` inverts it. -/
def invTemp : EReal := ((268435456 / 13421773 : ℝ) : EReal)

/-- The logit of row `b` against bank row `j`: their inner product, scaled. -/
def logit (X : FVec Ideal SIn .f32) (B : FVec Ideal SBank .f32) (b : Fin 256) (j : Fin 65536) : EReal :=
  (∑ k : Fin 2048, X (ix2 b k) * B (ix2 j k)) * invTemp

/-- The bank row that core `c` meets at position `jj` of its block `k` (blocks counted modulo 32, so that the
    numbering is total). -/
def colOf (c : Fin 2) (k : ℕ) (jj : Fin 1024) : Fin 65536 :=
  ⟨(c.val * 32 + k % 32) * 1024 + jj.val, by
    have := c.isLt; have := jj.isLt; have := Nat.mod_lt k (by norm_num : 0 < 32); omega⟩

/-- The logits of row `b` over block `k` of core `c`. -/
def blkLogit (X : FVec Ideal SIn .f32) (B : FVec Ideal SBank .f32) (c : Fin 2) (b : Fin 256) (k : ℕ) (jj : Fin 1024) : EReal :=
  logit X B b (colOf c k jj)

/-- Position `jj` of block `k` of core `c` is row `b`'s target: the column's number, as a 32-bit word, is the
    target word. -/
def blkHit (tg : IVec SRow 32) (c : Fin 2) (b : Fin 256) (k : ℕ) (jj : Fin 1024) : Prop :=
  BitVec.ofNat 32 (colOf c k jj).val = tg (ix1 b)

instance (tg : IVec SRow 32) (c : Fin 2) (b : Fin 256) (k : ℕ) : DecidablePred (blkHit tg c b k) :=
  fun _ => inferInstanceAs (Decidable (_ = _))

/-- What core `c` holds for row `b` after its 32 blocks. -/
def coreState (X : FVec Ideal SIn .f32) (B : FVec Ideal SBank .f32) (tg : IVec SRow 32) (c : Fin 2) (b : Fin 256) : St :=
  walk (blkLogit X B c b) (blkHit tg c b) 31

/-- The kernel's loss of row `b`: the two cores' walks merged. -/
def kernelRow (X : FVec Ideal SIn .f32) (B : FVec Ideal SBank .f32) (tg : IVec SRow 32) (b : Fin 256) : EReal :=
  merged (coreState X B tg 0 b) (coreState X B tg 1 b)

/-- The reference's loss of row `b`, its target word read as a column number. -/
def refRow (X : FVec Ideal SIn .f32) (B : FVec Ideal SBank .f32) (tg : IVec SRow 32) (b : Fin 256) : EReal :=
  direct (fun j => logit X B b j) ⟨(tg (ix1 b)).toNat % 65536, Nat.mod_lt _ (by norm_num)⟩

/-- The row an index of a 256-vector names. -/
def rowOf (i : SRow.Idx) : Fin 256 := ⟨(i 0).val, (i 0).isLt⟩

/-- The kernel's 256 losses as a vector. -/
def kernelRows (X : FVec Ideal SIn .f32) (B : FVec Ideal SBank .f32) (tg : IVec SRow 32) : FVec Ideal SRow .f32 :=
  fun i => kernelRow X B tg (rowOf i)

/-- The reference's 256 losses as a vector. -/
def refRows (X : FVec Ideal SIn .f32) (B : FVec Ideal SBank .f32) (tg : IVec SRow 32) : FVec Ideal SRow .f32 :=
  fun i => refRow X B tg (rowOf i)

end Cert.Rows

end
-- ==== Proof.KPay.lean ====
/-
  One grid point's arithmetic, read row by row.

  At a point the body forms the block's scores — row `b` of the inputs against row `jj` of the bank block, summed
  over the 2048 features and scaled by the named reciprocal temperature —, marks the score whose column
  number `(c * 32 + k) * 1024 + jj` equals the row's target word, and updates the three carried columns. Read at
  row `b` those updates are exactly one `Stream.step` of the row's state over the block's scores: the lane
  maximum is `blockMax`, the two lane sums are the step's sums, and the select keeps a score where the mark
  is set and `0` elsewhere.
-/
import proofs.«420116_j37349035606124_2_alg».proof.Proof.Gen.KernelIdeal.Skeleton
import proofs.«420116_j37349035606124_2_alg».proof.Proof.Rows
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.KPay

open Cert.KernelIdeal Cert.KernelIdeal.Gen Idealize.ShloMosaic Idealize.ShloMosaic.ValueIdx Cert.Stream Cert.Rows

/-- The score of row `b` against row `jj` of a bank block. -/
def scoreBlk (x0 : Vec Ideal S256x2048 .f32) (x1 : Vec Ideal S1024x2048 .f32) (b : Fin 256) (jj : Fin 1024) : EReal :=
  (∑ k : Fin 2048, x0 (ix2 b k) * x1 (ix2 jj k)) * invTemp

/-- Position `jj` of the block met at grid coordinates `i = (c, k)` is row `b`'s target: the column number
    `(c * 32 + k) * 1024 + jj`, as a 32-bit word, is the row's target word. -/
def hitBlk (i : grid0.Coords) (x2 : Vec Ideal S256x1 .i32) (b : Fin 256) (jj : Fin 1024) : Prop :=
  BitVec.ofNat 32 (((i 0).val * 32 + (i 1).val) * 1024 + jj.val) = x2 (ix2 b 0)

instance (i : grid0.Coords) (x2 : Vec Ideal S256x1 .i32) (b : Fin 256) : DecidablePred (hitBlk i x2 b) :=
  fun _ => inferInstanceAs (Decidable (_ = _))

/-- The named constant is the reciprocal temperature. -/
theorem named_invTemp : Named.named (F := Ideal) κ "inv_temp" (φ := .f32) 0x41A00000#32 = invTemp :=
  IdealRules.named_const.ideal_named_scalar _ _ _ _ rfl

/-! ## Layout forms: a vector as a column, a column over many columns -/

section Cols
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cols

/-! ## The lane reductions of a `256 × 1024` block, read at a row -/

/-- The `f32` word of `-∞` is the bottom of the extended reals. -/
theorem negInf_f32 : Ideal.ofBits .f32 0xFF800000#32 = (⊥ : EReal) := by simp [Ideal.ofBits, Ideal.ieee]

/-- Row `b` with lane `k` put back is the index `(b, k)`. -/
theorem lift_ix (b : Fin 256) (k : Fin 1024) : reduces_S256x1024_S256.lift (ix1 b) k = ix2 b k :=
  funext fun c => Fin.ext (by match c with | ⟨0, _⟩ => rfl | ⟨1, _⟩ => rfl)

/-- The lane maximum from `-∞` at row `b` is the largest entry of that row. -/
theorem rowMax_apply (src : FVec Ideal S256x1024 .f32) (hφ : FKind.Formats .f32)
    (hacc : (0xFF800000#32 : BitVec 32) = FKind.maximumf.neutral .f32 hφ) (b : Fin 256) :
    multiReduction .maximumf [1] S256 src 0xFF800000#32 reduces_S256x1024_S256 hφ hacc (ix1 b)
      = blockMax fun jj : Fin 1024 => src (ix2 b jj) := by
  refine (Ideal.multiReduction_maximumf_single src _ reduces_S256x1024_S256 hφ hacc (ix1 b)).trans ?_
  have e : (src ∘ reduces_S256x1024_S256.lift (ix1 b)) = fun jj : Fin 1024 => src (ix2 b jj) :=
    funext fun k => congrArg src (lift_ix b k)
  show (Finset.univ : Finset (Fin 1024)).fold max (Ideal.ofBits .f32 0xFF800000#32) (src ∘ reduces_S256x1024_S256.lift (ix1 b)) = _
  rw [e, negInf_f32]
  rfl

/-- The lane sum from `0` at row `b` is the sum of that row. -/
theorem rowSum_apply (src : FVec Ideal S256x1024 .f32) (hφ : FKind.Formats .f32)
    (hacc : (0x00000000#32 : BitVec 32) = FKind.add.neutral .f32 hφ) (b : Fin 256) :
    multiReduction .add [1] S256 src 0x00000000#32 reduces_S256x1024_S256 hφ hacc (ix1 b)
      = ∑ jj : Fin 1024, src (ix2 b jj) := by
  refine (Ideal.multiReduction_add_single src _ reduces_S256x1024_S256 hφ hacc (ix1 b)).trans ?_
  show ∑ k : Fin 1024, src (reduces_S256x1024_S256.lift (ix1 b) k) = _
  exact Finset.sum_congr rfl fun k _ => congrArg src (lift_ix b k)

/-! ## The product: both operands contracted on their feature axis -/

theorem lhs_mm_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs_mm_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
theorem rhs_mm_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs_mm_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The product into the zero splat, read at `(b, jj)`: row `b` of the left operand against row `jj` of the right,
    summed over the 2048 features. -/
theorem matmul_read {φ₁ φ₂ : FTy} (y0 : FVec Ideal S256x2048 φ₁) (y1 : FVec Ideal S1024x2048 φ₂) (b : Fin 256) (jj : Fin 1024) :
    matmul dot_S256x2048_S1024x2048_S256x1024_1_1_0_0_n_n none y0 y1 (constant (F := Ideal) S256x1024 .f32 0x00000000#32) (ix2 b jj)
      = ∑ k : Fin 2048, y0 (ix2 b k) * y1 (ix2 jj k) := by
  simp only [matmul]
  rw [Ideal.matmul_constant_zero_apply, ← Equiv.sum_comp (ValueIdx.contrEquiv1 dot_S256x2048_S1024x2048_S256x1024_1_1_0_0_n_n 2048 rfl rfl).symm]
  refine Finset.sum_congr rfl fun k _ => ?_
  have hk := ValueIdx.contrEquiv1_symm_val dot_S256x2048_S1024x2048_S256x1024_1_1_0_0_n_n 2048 rfl rfl k
  have el : dot_S256x2048_S1024x2048_S256x1024_1_1_0_0_n_n.lhsIdx (ix2 b jj) ((ValueIdx.contrEquiv1 dot_S256x2048_S1024x2048_S256x1024_1_1_0_0_n_n 2048 rfl rfl).symm k) = ix2 b k := funext fun a => Fin.ext (by
    match a with
    | ⟨0, _⟩ => exact lhs_mm_0 _ _
    | ⟨1, _⟩ => exact (lhs_mm_1 _ _).trans hk)
  have er : dot_S256x2048_S1024x2048_S256x1024_1_1_0_0_n_n.rhsIdx (ix2 b jj) ((ValueIdx.contrEquiv1 dot_S256x2048_S1024x2048_S256x1024_1_1_0_0_n_n 2048 rfl rfl).symm k) = ix2 jj k := funext fun a => Fin.ext (by
    match a with
    | ⟨0, _⟩ => exact rhs_mm_0 _ _
    | ⟨1, _⟩ => exact (rhs_mm_1 _ _).trans hk)
  rw [el, er]

/-- The scores block at `(b, jj)`. -/
theorem pay8_apply (x0 : Vec Ideal S256x2048 .f32) (x1 : Vec Ideal S1024x2048 .f32) (b : Fin 256) (jj : Fin 1024) :
    k0_pay8 (F := Ideal) x0 x1 (ix2 b jj) = scoreBlk x0 x1 b jj := by
  unfold k0_pay8 scoreBlk
  refine (mulf_apply _ _ _).trans ?_
  rw [matmul_read, broadcast_apply, named_invTemp]
  simp only [truncf_apply, shapeCast_self]

/-! ## Words -/

/-- An equality test of two words answers `1` exactly when they are equal. -/
theorem cmpi_eq_one_iff {w : ℕ} (x y : BitVec w) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_false_of_ne h]
    exact ⟨fun h1 => absurd h1 (by decide), fun h1 => absurd h1 h⟩

/-- The column number computed on words is the word of the column number. -/
theorem word_col (a c j : ℕ) :
    (BitVec.ofNat 32 a * 32#32 + BitVec.ofNat 32 c) * 1024#32 + BitVec.ofNat 32 j = BitVec.ofNat 32 ((a * 32 + c) * 1024 + j) := by
  simp only [BitVec.ofNat_add, BitVec.ofNat_mul]

/-- The mark at `(b, jj)` is set exactly on the target's column. -/
theorem pay9_apply (i : grid0.Coords) (x2 : Vec Ideal S256x1 .i32) (b : Fin 256) (jj : Fin 1024) :
    k0_pay9 (F := Ideal) i x2 (ix2 b jj) = 1#1 ↔ hitBlk i x2 b jj := by
  unfold k0_pay9 hitBlk
  show IntOp.cmpi .eq
      ((BitVec.ofNat 32 (i 0).val * 32#32 + BitVec.ofNat 32 (i 1).val) * 1024#32
        + iota .tc S256x1024 32 [1] iota_S256x1024_d1_w32 (ix2 b jj))
      (broadcastTo S256x1024 (shapeCast S256x1 x2 shapeCasts_S256x1_S256x1) broadcasts_S256x1_S256x1024 (ix2 b jj)) = 1#1 ↔ _
  rw [cmpi_eq_one_iff, iota_single_apply, broadcastTo_a1_ab_apply, shapeCast_self]
  show (BitVec.ofNat 32 (i 0).val * 32#32 + BitVec.ofNat 32 (i 1).val) * 1024#32 + BitVec.ofNat 32 jj.val = _ ↔ _
  rw [word_col]

/-- The resets: `-∞`, `0`, `0`. -/
theorem reset_apply (b : Fin 256) :
    k0_pay5 (F := Ideal) (ix2 b 0) = (⊥ : EReal) ∧ k0_pay6 (F := Ideal) (ix2 b 0) = (0 : EReal)
      ∧ k0_pay7 (F := Ideal) (ix2 b 0) = (0 : EReal) := by
  refine ⟨?_, ?_, ?_⟩
  · unfold k0_pay5
    rw [shapeCast_self]
    exact negInf_f32
  · unfold k0_pay6
    rw [shapeCast_self]
    exact Ideal.ofBits_zero_f32
  · unfold k0_pay7
    rw [shapeCast_self]
    exact Ideal.ofBits_zero_f32

/-! ## The three updates at a row -/

theorem pay10_apply (x0 : Vec Ideal S256x2048 .f32) (x1 : Vec Ideal S1024x2048 .f32) (p : Vec Ideal S256x1 .f32) (b : Fin 256) :
    k0_pay10 (F := Ideal) x0 x1 p (ix2 b 0) = max (p (ix2 b 0)) (blockMax (scoreBlk x0 x1 b)) := by
  unfold k0_pay10
  refine (maximumf_apply _ _ _).trans ?_
  rw [shapeCast_a_a1_apply]
  refine (congrArg (max _) (rowMax_apply _ _ _ b)).trans ?_
  have e : (fun jj : Fin 1024 => k0_pay8 (F := Ideal) x0 x1 (ix2 b jj)) = scoreBlk x0 x1 b :=
    funext fun jj => pay8_apply x0 x1 b jj
  rw [e]

theorem pay11_apply (x0 : Vec Ideal S256x2048 .f32) (x1 : Vec Ideal S1024x2048 .f32) (p q : Vec Ideal S256x1 .f32) (b : Fin 256) :
    k0_pay11 (F := Ideal) x0 x1 p p q (ix2 b 0)
      = q (ix2 b 0) * Ideal.exp (p (ix2 b 0) - max (p (ix2 b 0)) (blockMax (scoreBlk x0 x1 b)))
        + ∑ jj : Fin 1024, Ideal.exp (scoreBlk x0 x1 b jj - max (p (ix2 b 0)) (blockMax (scoreBlk x0 x1 b))) := by
  unfold k0_pay11
  refine (addf_apply _ _ _).trans ?_
  rw [shapeCast_a_a1_apply]
  refine (congrArg (_ + ·) (rowSum_apply _ _ _ b)).trans ?_
  show q (ix2 b 0) * Ideal.exp (p (ix2 b 0) - k0_pay10 (F := Ideal) x0 x1 p (ix2 b 0))
      + ∑ jj : Fin 1024, Ideal.exp (k0_pay8 (F := Ideal) x0 x1 (ix2 b jj)
          - broadcastTo S256x1024 (k0_pay10 (F := Ideal) x0 x1 p) broadcasts_S256x1_S256x1024 (ix2 b jj)) = _
  rw [pay10_apply]
  refine congrArg (_ + ·) (Finset.sum_congr rfl fun jj _ => ?_)
  rw [pay8_apply, broadcastTo_a1_ab_apply, pay10_apply]

theorem pay2_apply (i : grid0.Coords) (x0 : Vec Ideal S256x2048 .f32) (x1 : Vec Ideal S1024x2048 .f32)
    (x2 : Vec Ideal S256x1 .i32) (u : Vec Ideal S256x1 .f32) (b : Fin 256) [DecidablePred (hitBlk i x2 b)] :
    k0_pay2 (F := Ideal) (k0_pay8 x0 x1) (k0_pay9 i x2) u (ix2 b 0)
      = u (ix2 b 0) + ∑ jj : Fin 1024, if hitBlk i x2 b jj then scoreBlk x0 x1 b jj else 0 := by
  unfold k0_pay2
  rw [shapeCast_self]
  refine (addf_apply _ _ _).trans ?_
  rw [shapeCast_a_a1_apply]
  refine (congrArg (_ + ·) (rowSum_apply _ _ _ b)).trans ?_
  refine congrArg (_ + ·) (Finset.sum_congr rfl fun jj _ => ?_)
  rw [select_apply, pay8_apply, broadcast_apply]
  by_cases h : hitBlk i x2 b jj
  · rw [if_pos h, (pay9_apply i x2 b jj).mpr h, select_one]
  · rw [if_neg h, eq_zero_of_ne_one (fun h1 => h ((pay9_apply i x2 b jj).mp h1)), select_zero]
    exact Ideal.ofBits_zero_f32

theorem pay3_read (v : FVec Ideal S256x1 .f32) (j : S256x1.Idx) : k0_pay3 (F := Ideal) v j = v j := by
  unfold k0_pay3
  rw [shapeCast_self]

theorem pay1_read (v : FVec Ideal S256x1 .f32) (j : S256x1.Idx) : k0_pay1 (F := Ideal) v j = v j := by
  unfold k0_pay1
  rw [shapeCast_self]

/-- The three updated columns at row `b` are one step of the row's state over the block's scores. -/
theorem step_apply (i : grid0.Coords) (x0 : Vec Ideal S256x2048 .f32) (x1 : Vec Ideal S1024x2048 .f32)
    (x2 : Vec Ideal S256x1 .i32) (p q u : Vec Ideal S256x1 .f32) (b : Fin 256) :
    ((k0_pay3 (F := Ideal) (k0_pay10 x0 x1 p) (ix2 b 0) : EReal),
     (k0_pay1 (F := Ideal) (k0_pay11 x0 x1 p p q) (ix2 b 0) : EReal),
     (k0_pay2 (F := Ideal) (k0_pay8 x0 x1) (k0_pay9 i x2) u (ix2 b 0) : EReal))
      = step (scoreBlk x0 x1 b) (hitBlk i x2 b) ((p (ix2 b 0) : EReal), (q (ix2 b 0) : EReal), (u (ix2 b 0) : EReal)) := by
  unfold step
  refine Prod.ext ?_ (Prod.ext ?_ ?_)
  · exact (pay3_read _ _).trans (pay10_apply x0 x1 p b)
  · exact (pay1_read _ _).trans (pay11_apply x0 x1 p q b)
  · exact pay2_apply i x0 x1 x2 u b

/-- The output block holds the three columns at `(0, b, 0)`, `(0, b, 1)`, `(0, b, 2)`. -/
theorem pay4_apply (v54 v55 v56 : Vec Ideal S256x1 .f32) (b : Fin 256) :
    k0_pay4 (F := Ideal) v54 v55 v56 (ix3 0 b 0) = v54 (ix2 b 0)
      ∧ k0_pay4 (F := Ideal) v54 v55 v56 (ix3 0 b 1) = v55 (ix2 b 0)
      ∧ k0_pay4 (F := Ideal) v54 v55 v56 (ix3 0 b 2) = v56 (ix2 b 0) := by
  unfold k0_pay4
  refine ⟨?_, ?_, ?_⟩
  · refine (shapeCast_ab_1ab_apply _ _ (0 : Fin 1) b (0 : Fin 3)).trans ?_
    exact concatenate_apply_piece (1 : Fin S256x3.rank) [⟨S256x1, v54⟩, ⟨S256x1, v55⟩, ⟨S256x1, v56⟩]
      concatenates_S256x1_S256x1_S256x1_S256x3_d1 (ix2 b (0 : Fin 3))
      0 (show (0 : ℕ) < 3 by decide) S256x1 v54 rfl rfl 0 rfl (ix2 b (0 : Fin 1))
      (fun c hc => by match c with | ⟨0, _⟩ => rfl | ⟨1, _⟩ => exact absurd (Fin.ext rfl) hc) rfl
  · refine (shapeCast_ab_1ab_apply _ _ (0 : Fin 1) b (1 : Fin 3)).trans ?_
    exact concatenate_apply_piece (1 : Fin S256x3.rank) [⟨S256x1, v54⟩, ⟨S256x1, v55⟩, ⟨S256x1, v56⟩]
      concatenates_S256x1_S256x1_S256x1_S256x3_d1 (ix2 b (1 : Fin 3))
      1 (show (1 : ℕ) < 3 by decide) S256x1 v55 rfl rfl 1 rfl (ix2 b (0 : Fin 1))
      (fun c hc => by match c with | ⟨0, _⟩ => rfl | ⟨1, _⟩ => exact absurd (Fin.ext rfl) hc) rfl
  · refine (shapeCast_ab_1ab_apply _ _ (0 : Fin 1) b (2 : Fin 3)).trans ?_
    exact concatenate_apply_piece (1 : Fin S256x3.rank) [⟨S256x1, v54⟩, ⟨S256x1, v55⟩, ⟨S256x1, v56⟩]
      concatenates_S256x1_S256x1_S256x1_S256x3_d1 (ix2 b (2 : Fin 3))
      2 (show (2 : ℕ) < 3 by decide) S256x1 v56 rfl rfl 2 rfl (ix2 b (0 : Fin 1))
      (fun c hc => by match c with | ⟨0, _⟩ => rfl | ⟨1, _⟩ => exact absurd (Fin.ext rfl) hc) rfl

end Cert.KernelIdeal.KPay

end
-- ==== Proof.KPieces.lean ====
/-
  What one grid point leaves behind, as pure functions of what it read.

  A point of the grid reads its three input blocks and the three carried columns (running maximum, running
  sum, target sum) and stores each column once; a core's first point first stores the resets `-∞, 0, 0` and
  reads those back, and its last point also stores the three updated columns side by side into the output
  block. Whatever the stores' order, each buffer ends at the value of its last store, and that value is a
  pure function of the blocks and of the columns read: the body's arithmetic with the loads replaced by
  their values. One equation per buffer and per kind of point says which.
-/
import proofs.«420116_j37349035606124_2_alg».proof.Proof.Gen.KernelIdeal.Frame
import Idealize.ShloMosaic.Lib.Pipeline.Value

set_option maxRecDepth 16384

noncomputable section

namespace Cert.KernelIdeal.KPieces

open Cert.KernelIdeal Cert.KernelIdeal.Gen Idealize.ShloMosaic Idealize.ShloMosaic.TcCoe Idealize.ShloMosaic.Tactic
open Idealize.SL Idealize.SL.Sem

variable {F : FTy → Type} [FloatOps F] [Named F]

/-- The origin of a two-axis block, spelt as the zero function. -/
private theorem hz : (![0, 0] : Fin 2 → Nat) = fun _ => 0 := funext fun a => by fin_cases a <;> rfl

/-- The origin of a three-axis block, spelt as the zero function. -/
private theorem hz3 : (![0, 0, 0] : Fin 3 → Nat) = fun _ => 0 := funext fun a => by fin_cases a <;> rfl

/-- At a core's first block the running maximum is the block's maximum joined with the reset value `-∞` just stored. -/
theorem sout0_A_0_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i) (x0 : Vec F S256x2048 .f32) (x1 : Vec F S1024x2048 .f32) (x2 : Vec F S256x1 .i32) :
    sout0_A_0 c i arg2 harg2 arg3 harg3 arg4 harg4 arg5 harg5 arg6 harg6 arg7 harg7 arg8 harg8 hc0 hc1 x0 x1 x2 = k0_pay3 (k0_pay10 x0 x1 k0_pay5) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, View.readCov_unit_zero (S := S256x1) _ hz, View.ld_unit_zero (S := S256x2048) hz, View.ld_unit_zero (S := S1024x2048) hz, View.ld_unit_zero (S := S256x1) hz]

/-- At a core's first block the running sum is the step's from the reset maximum `-∞` and the reset sum `0`. -/
theorem sout0_A_1_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i) (x0 : Vec F S256x2048 .f32) (x1 : Vec F S1024x2048 .f32) (x2 : Vec F S256x1 .i32) :
    sout0_A_1 c i arg2 harg2 arg3 harg3 arg4 harg4 arg5 harg5 arg6 harg6 arg7 harg7 arg8 harg8 hc0 hc1 x0 x1 x2 = k0_pay1 (k0_pay11 x0 x1 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, View.readCov_unit_zero (S := S256x1) _ hz, View.ld_unit_zero (S := S256x2048) hz, View.ld_unit_zero (S := S1024x2048) hz, View.ld_unit_zero (S := S256x1) hz]

/-- At a core's first block the target sum is the block's hit logits added to the reset `0`. -/
theorem sout0_A_2_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond0_0 i) (hc1 : ¬cond0_1 i) (x0 : Vec F S256x2048 .f32) (x1 : Vec F S1024x2048 .f32) (x2 : Vec F S256x1 .i32) :
    sout0_A_2 c i arg2 harg2 arg3 harg3 arg4 harg4 arg5 harg5 arg6 harg6 arg7 harg7 arg8 harg8 hc0 hc1 x0 x1 x2 = k0_pay2 (k0_pay8 x0 x1) (k0_pay9 i x2) k0_pay7 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, View.readCov_unit_zero (S := S256x1) _ hz, View.ld_unit_zero (S := S256x2048) hz, View.ld_unit_zero (S := S1024x2048) hz, View.ld_unit_zero (S := S256x1) hz]

/-- At a later block the running maximum is the block's maximum joined with what the block before left. -/
theorem sout0_B_0_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    sout0_B_0 c i arg2 harg2 arg3 harg3 arg4 harg4 arg5 harg5 arg6 harg6 arg7 harg7 arg8 harg8 hc0 hc1 x0 x1 x2 xs0 xs1 xs2 = k0_pay3 (k0_pay10 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S256x1) hz]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

/-- At a later block the running sum is the step's from the maximum and the sum the block before left. -/
theorem sout0_B_1_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    sout0_B_1 c i arg2 harg2 arg3 harg3 arg4 harg4 arg5 harg5 arg6 harg6 arg7 harg7 arg8 harg8 hc0 hc1 x0 x1 x2 xs0 xs1 xs2 = k0_pay1 (k0_pay11 x0 x1 xs0 xs0 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S256x1) hz]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

/-- At a later block the target sum is the block's hit logits added to what the block before left. -/
theorem sout0_B_2_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : ¬cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    sout0_B_2 c i arg2 harg2 arg3 harg3 arg4 harg4 arg5 harg5 arg6 harg6 arg7 harg7 arg8 harg8 hc0 hc1 x0 x1 x2 xs0 xs1 xs2 = k0_pay2 (k0_pay8 x0 x1) (k0_pay9 i x2) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S256x1) hz]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

/-- At a core's last block the running maximum is updated as at any later block. -/
theorem sout0_C_0_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    sout0_C_0 c i arg2 harg2 arg3 harg3 arg4 harg4 arg5 harg5 arg6 harg6 arg7 harg7 arg8 harg8 hc0 hc1 x0 x1 x2 xs0 xs1 xs2 = k0_pay3 (k0_pay10 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S256x1) hz]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

/-- At a core's last block the running sum is updated as at any later block. -/
theorem sout0_C_1_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    sout0_C_1 c i arg2 harg2 arg3 harg3 arg4 harg4 arg5 harg5 arg6 harg6 arg7 harg7 arg8 harg8 hc0 hc1 x0 x1 x2 xs0 xs1 xs2 = k0_pay1 (k0_pay11 x0 x1 xs0 xs0 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S256x1) hz]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

/-- At a core's last block the target sum is updated as at any later block. -/
theorem sout0_C_2_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    sout0_C_2 c i arg2 harg2 arg3 harg3 arg4 harg4 arg5 harg5 arg6 harg6 arg7 harg7 arg8 harg8 hc0 hc1 x0 x1 x2 xs0 xs1 xs2 = k0_pay2 (k0_pay8 x0 x1) (k0_pay9 i x2) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S256x1) hz]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

/-- At a core's last block the output block holds the three updated columns side by side. -/
theorem out0_C_3_eq (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S256x1 .i32) (harg4 : arg4.IsWhole) (arg5 : Memref sig .tc .vmem S1x256x3 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond0_0 i) (hc1 : cond0_1 i) (x0 : Vec F S256x2048 .f32) (x1 : Vec F S1024x2048 .f32) (x2 : Vec F S256x1 .i32) (xs0 : Vec F S256x1 .f32) (xs1 : Vec F S256x1 .f32) (xs2 : Vec F S256x1 .f32) :
    out0_C_3 c i arg2 harg2 arg3 harg3 arg4 harg4 arg5 harg5 arg6 harg6 arg7 harg7 arg8 harg8 hc0 hc1 x0 x1 x2 xs0 xs1 xs2 = k0_pay4 (k0_pay3 (k0_pay10 x0 x1 xs0)) (k0_pay1 (k0_pay11 x0 x1 xs0 xs0 xs1)) (k0_pay2 (k0_pay8 x0 x1) (k0_pay9 i x2) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x256x3) hz3]
  simp only [View.readAt_eq_ld, harg2.read_unread, harg3.read_unread, harg4.read_unread, harg6.read_unread, harg7.read_unread, harg8.read_unread, View.readCov_unit_zero (S := S256x1) _ hz, View.ld_unit_zero (S := S256x2048) hz, View.ld_unit_zero (S := S1024x2048) hz, View.ld_unit_zero (S := S256x1) hz]

end Cert.KernelIdeal.KPieces

end
-- ==== Proof.KInv.lean ====
/-
  What the region leaves in the output array.

  The grid's 64 points are visited in order; point `t` belongs to core `t / 32` and is that core's block
  `t % 32`, and it reads the whole normalised inputs, rows `t * 1024 … t * 1024 + 1023` of the bank, and the
  whole targets column. By induction along a core's 32 points the three carried columns hold, at row `b`,
  the walk of `Stream` over the core's blocks so far: the first point steps from the resets, each later one
  from what the point before left. Only a core's last point writes the output block back, into rows
  `(core, ·, ·)` of the output array; the two blocks tile the array, so after the region entry `(cc, b, i)` is
  the `i`-th component of core `cc`'s walk for row `b` after its 32 blocks.
-/
import proofs.«420116_j37349035606124_2_alg».proof.Proof.Gen.KernelIdeal.Frame
import proofs.«420116_j37349035606124_2_alg».proof.Proof.KPay
import proofs.«420116_j37349035606124_2_alg».proof.Proof.KPieces
import Idealize.ShloMosaic.Lib.Pipeline.Value

set_option maxRecDepth 16384

noncomputable section

namespace Cert.KernelIdeal.KInv

open Cert.KernelIdeal Cert.KernelIdeal.Gen Idealize.ShloMosaic Idealize.ShloMosaic.TcCoe Idealize.SL.Sem
open Idealize.ShloMosaic.ValueIdx Cert.Stream Cert.Rows

variable (m : (ℓ : Loc nD τ sig) → Buf (Elt Ideal) ℓ)

/-- The normalised inputs as the region finds them. -/
abbrev xarr (c : Dev nD) : Vec Ideal S256x2048 .f32 := V m c main_v2
/-- The bank as the region finds it. -/
abbrev barr (c : Dev nD) : Vec Ideal S65536x2048 .f32 := V m c main_arg3
/-- The targets column as the region finds it. -/
abbrev tarr (c : Dev nD) : Vec Ideal S256x1 .i32 := V m c main_v3
/-- The output array after the region's last point. -/
abbrev outArr (c : Dev nD) : Vec Ideal S2x256x3 .f32 := (dats m 0 c).arrAt 3 cfg0.N

/-- A grid point's two coordinates are its number's quotient and remainder by 32. -/
theorem coords_val : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

/-- The block indices of the four windows at a point: the inputs and the targets are one whole block, the bank's
    block is the point's own number, the output's block is the point's core. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 32 ∧ win0_3.index t (1 : Fin 3) = 0 ∧ win0_3.index t (2 : Fin 3) = 0 :=
  (by decide +kernel : ∀ t : Fin grid0.N, _)

/-- The inputs' block at a point. -/
abbrev xblk (c : Dev nD) (t : Fin cfg0.N) : Vec Ideal S256x2048 .f32 := iblk m c 0 t
/-- The bank's block at a point. -/
abbrev bblk (c : Dev nD) (t : Fin cfg0.N) : Vec Ideal S1024x2048 .f32 := iblk m c 1 t
/-- The targets' block at a point. -/
abbrev tblk (c : Dev nD) (t : Fin cfg0.N) : Vec Ideal S256x1 .i32 := iblk m c 2 t

/-- Every point reads the whole normalised inputs. -/
theorem xblk_apply (c : Dev nD) (t : Fin cfg0.N) (b : Fin 256) (k : Fin 2048) :
    xblk m c t (ix2 b k) = xarr m c (ix2 b k) := by
  obtain ⟨e0, e1, -⟩ := idx_facts t
  unfold xblk iblk
  rw [View.read_apply]
  show V m c main_v2 _ = V m c main_v2 _
  congr 1
  funext a
  apply Fin.ext
  match a with
  | ⟨0, _⟩ => show win0_0.index t 0 * 256 + 1 * b.val = b.val; rw [e0]; omega
  | ⟨1, _⟩ => show win0_0.index t 1 * 2048 + 1 * k.val = k.val; rw [e1]; omega

/-- Point `t` reads rows `t * 1024 … t * 1024 + 1023` of the bank. -/
theorem bblk_apply (c : Dev nD) (t : Fin cfg0.N) (jj : Fin 1024) (k : Fin 2048) (r : Fin 65536)
    (hr : r.val = t.val * 1024 + jj.val) :
    bblk m c t (ix2 jj k) = barr m c (ix2 r k) := by
  obtain ⟨-, -, e0, e1, -⟩ := idx_facts t
  unfold bblk iblk
  rw [View.read_apply]
  show V m c main_arg3 _ = V m c main_arg3 _
  congr 1
  funext a
  apply Fin.ext
  match a with
  | ⟨0, _⟩ => show win0_1.index t 0 * 1024 + 1 * jj.val = r.val; rw [e0, hr]; omega
  | ⟨1, _⟩ => show win0_1.index t 1 * 2048 + 1 * k.val = k.val; rw [e1]; omega

/-- Every point reads the whole targets column. -/
theorem tblk_apply (c : Dev nD) (t : Fin cfg0.N) (b : Fin 256) :
    tblk m c t (ix2 b 0) = tarr m c (ix2 b 0) := by
  obtain ⟨-, -, -, -, e0, e1, -⟩ := idx_facts t
  unfold tblk iblk
  rw [View.read_apply]
  show V m c main_v3 _ = V m c main_v3 _
  congr 1
  funext a
  apply Fin.ext
  match a with
  | ⟨0, _⟩ => show win0_2.index t 0 * 256 + 1 * b.val = b.val; rw [e0]; omega
  | ⟨1, _⟩ => show win0_2.index t 1 * 1 + 1 * (0 : Fin 1).val = (0 : Fin 1).val; rw [e1, Nat.zero_mul, Nat.zero_add, Nat.one_mul]

/-- A step depends on the block's logits only through their values and on the marks only through their truth. -/
theorem step_congr {n : ℕ} (S S' : Fin n → EReal) (hit hit' : Fin n → Prop) [DecidablePred hit] [DecidablePred hit']
    (hS : ∀ j, S j = S' j) (hh : ∀ j, hit j ↔ hit' j) (st : St) : step S hit st = step S' hit' st := by
  obtain rfl : S = S' := funext hS
  have e2 : (∑ j, if hit j then S j else 0) = ∑ j, if hit' j then S j else 0 :=
    Finset.sum_congr rfl fun j _ => if_congr (hh j) rfl rfl
  unfold step
  rw [e2]

/-- The core a point belongs to. -/
abbrev coreOf (t : Fin cfg0.N) : Fin 2 := ⟨t.val / 32, by have h : t.val < 64 := lt_of_lt_of_eq t.isLt N_0; omega⟩

/-- Scores over blocks that agree, entry by entry, with the inputs and with the bank rows a core meets in a block
    are that core's logits of the block. -/
theorem score_congr (x0 : Vec Ideal S256x2048 .f32) (x1 : Vec Ideal S1024x2048 .f32) (X : FVec Ideal SIn .f32)
    (B : FVec Ideal SBank .f32) (cc : Fin 2) (kk : ℕ) (b : Fin 256) (jj : Fin 1024)
    (hx : ∀ k : Fin 2048, x0 (ix2 b k) = X (ix2 b k))
    (hb : ∀ k : Fin 2048, x1 (ix2 jj k) = B (ix2 (colOf cc kk jj) k)) :
    KPay.scoreBlk x0 x1 b jj = blkLogit X B cc b kk jj := by
  unfold KPay.scoreBlk blkLogit logit
  refine congrArg (· * invTemp) (Finset.sum_congr rfl fun k _ => ?_)
  rw [hx k, hb k]

/-- The scores a point forms are its core's logits of its block. -/
theorem score_eq (c : Dev nD) (t : Fin cfg0.N) (b : Fin 256) (jj : Fin 1024) :
    KPay.scoreBlk (xblk m c t) (bblk m c t) b jj = blkLogit (xarr m c) (barr m c) (coreOf t) b (t.val % 32) jj :=
  score_congr (xblk m c t) (bblk m c t) (xarr m c) (barr m c) (coreOf t) (t.val % 32) b jj
    (fun k => xblk_apply m c t b k)
    (fun k => bblk_apply m c t jj k (colOf (coreOf t) (t.val % 32) jj) (by
      show (t.val / 32 * 32 + t.val % 32 % 32) * 1024 + jj.val = _; omega))

/-- A mark formed at coordinates `(cc, kk % 32)` against a targets block that holds the target words is the core's
    target mark of block `kk`. -/
theorem hit_congr (i : grid0.Coords) (x2 : Vec Ideal S256x1 .i32) (tg : IVec SRow 32) (cc : Fin 2) (kk : ℕ)
    (b : Fin 256) (jj : Fin 1024) (h0 : (i 0).val = cc.val) (h1 : (i 1).val = kk % 32)
    (hx : x2 (ix2 b 0) = tg (ix1 b)) :
    KPay.hitBlk i x2 b jj ↔ blkHit tg cc b kk jj := by
  unfold KPay.hitBlk blkHit colOf
  rw [hx, h0, h1]

/-- The marks a point forms are its core's target marks of its block. -/
theorem hit_iff (c : Dev nD) (tg : IVec SRow 32) (htg : ∀ b : Fin 256, tarr m c (ix2 b 0) = tg (ix1 b))
    (t : Fin cfg0.N) (b : Fin 256) (jj : Fin 1024) :
    KPay.hitBlk (grid0.coords t) (tblk m c t) b jj ↔ blkHit tg (coreOf t) b (t.val % 32) jj :=
  hit_congr (grid0.coords t) (tblk m c t) tg (coreOf t) (t.val % 32) b jj (coords_val t).1
    ((coords_val t).2.trans (Nat.mod_mod _ _).symm) ((tblk_apply m c t b).trans (htg b))

/-- The three carried columns after point `n`, read at row `b`. -/
def colsAt (c : Dev nD) (n : ℕ) (hn : n < cfg0.N) (b : Fin 256) : St :=
  (((outsAt0 m c n hn).2.1 (ix2 b 0) : EReal), ((outsAt0 m c n hn).2.2.1 (ix2 b 0) : EReal),
   ((outsAt0 m c n hn).2.2.2 (ix2 b 0) : EReal))

/-- A core's first point steps from the empty state. -/
theorem colsAt_A (c : Dev nD) (t : Fin cfg0.N) (h0 : t.val % 32 = 0) (b : Fin 256) :
    colsAt m c t.val t.isLt b
      = step (KPay.scoreBlk (xblk m c t) (bblk m c t) b) (KPay.hitBlk (grid0.coords t) (tblk m c t) b) st0 := by
  have h1 : ¬t.val % 32 = 31 := by omega
  unfold colsAt
  rw [outsAt0_A m c t h0 h1]
  dsimp only
  rw [KPieces.sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (bblk m c t) (tblk m c t),
    KPieces.sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (bblk m c t) (tblk m c t),
    KPieces.sout0_A_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (xblk m c t) (bblk m c t) (tblk m c t)]
  rw [KPay.step_apply (grid0.coords t) (xblk m c t) (bblk m c t) (tblk m c t) (k0_pay5 (F := Ideal)) (k0_pay6 (F := Ideal)) (k0_pay7 (F := Ideal)) b]
  obtain ⟨r0, r1, r2⟩ := KPay.reset_apply b
  rw [r0, r1, r2]
  rfl

/-- A later point steps from what the point before left. -/
theorem colsAt_succ (c : Dev nD) (t : Fin cfg0.N) (h0 : ¬t.val % 32 = 0) (b : Fin 256) :
    colsAt m c t.val t.isLt b
      = step (KPay.scoreBlk (xblk m c t) (bblk m c t) b) (KPay.hitBlk (grid0.coords t) (tblk m c t) b)
          (colsAt m c (t.val - 1) (Nat.lt_of_le_of_lt (Nat.sub_le _ _) t.isLt) b) := by
  unfold colsAt
  by_cases h1 : t.val % 32 = 31
  · rw [outsAt0_C m c t h0 h1]
    dsimp only
    rw [KPieces.sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact KPay.step_apply (grid0.coords t) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 b
  · rw [outsAt0_B m c t h0 h1]
    dsimp only
    rw [KPieces.sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout0_B_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact KPay.step_apply (grid0.coords t) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 b

/-- At a core's last point the output block holds, in row `b`, the three columns the point leaves. -/
theorem outBlk_C (c : Dev nD) (t : Fin cfg0.N) (h1 : t.val % 32 = 31) (b : Fin 256) :
    ((outsAt0 m c t.val t.isLt).1 (ix3 0 b 0) : EReal) = (colsAt m c t.val t.isLt b).1
      ∧ ((outsAt0 m c t.val t.isLt).1 (ix3 0 b 1) : EReal) = (colsAt m c t.val t.isLt b).2.1
      ∧ ((outsAt0 m c t.val t.isLt).1 (ix3 0 b 2) : EReal) = (colsAt m c t.val t.isLt b).2.2 := by
  have h0 : ¬t.val % 32 = 0 := by omega
  unfold colsAt
  rw [outsAt0_C m c t h0 h1]
  dsimp only
  rw [KPieces.out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    KPieces.sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    KPieces.sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    KPieces.sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (xblk m c t) (bblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact KPay.pay4_apply _ _ _ b

/-- One step over a point's own scores and marks is the step over its core's logits and target marks of block `kk`,
    `kk` the point's place among its core's blocks. -/
theorem step_eq (c : Dev nD) (tg : IVec SRow 32) (htg : ∀ b : Fin 256, tarr m c (ix2 b 0) = tg (ix1 b))
    (t : Fin cfg0.N) (kk : ℕ) (hk : t.val % 32 = kk) (b : Fin 256) (st : St) :
    step (KPay.scoreBlk (xblk m c t) (bblk m c t) b) (KPay.hitBlk (grid0.coords t) (tblk m c t) b) st
      = step (blkLogit (xarr m c) (barr m c) (coreOf t) b kk) (blkHit tg (coreOf t) b kk) st := by
  subst hk
  exact step_congr (KPay.scoreBlk (xblk m c t) (bblk m c t) b) (blkLogit (xarr m c) (barr m c) (coreOf t) b (t.val % 32))
    (KPay.hitBlk (grid0.coords t) (tblk m c t) b) (blkHit tg (coreOf t) b (t.val % 32))
    (fun jj => score_eq m c t b jj) (fun jj => hit_iff m c tg htg t b jj) st

/-- THE INVARIANT: after point `n` the carried columns hold, at row `b`, the walk of the point's core over its
    blocks `0, …, n % 32`. -/
theorem cols_walk (c : Dev nD) (tg : IVec SRow 32) (htg : ∀ b : Fin 256, tarr m c (ix2 b 0) = tg (ix1 b)) :
    ∀ (n : ℕ) (hn : n < cfg0.N) (b : Fin 256),
      colsAt m c n hn b
        = walk (blkLogit (xarr m c) (barr m c) (coreOf ⟨n, hn⟩) b) (blkHit tg (coreOf ⟨n, hn⟩) b) (n % 32)
  | 0, hn, b =>
    (colsAt_A m c ⟨0, hn⟩ (Nat.zero_mod 32) b).trans (step_eq m c tg htg ⟨0, hn⟩ 0 (Nat.zero_mod 32) b st0)
  | n + 1, hn, b => by
    have ih := cols_walk c tg htg n (Nat.lt_of_succ_lt hn) b
    by_cases h0 : (n + 1) % 32 = 0
    · rw [h0]
      exact (colsAt_A m c ⟨n + 1, hn⟩ h0 b).trans (step_eq m c tg htg ⟨n + 1, hn⟩ 0 h0 b st0)
    · obtain ⟨k, hk⟩ : ∃ k, (n + 1) % 32 = k + 1 := ⟨(n + 1) % 32 - 1, by omega⟩
      have hc : coreOf ⟨n, Nat.lt_of_succ_lt hn⟩ = coreOf ⟨n + 1, hn⟩ :=
        Fin.ext (by show n / 32 = (n + 1) / 32; omega)
      have hk' : n % 32 = k := by omega
      rw [hc, hk'] at ih
      rw [hk]
      refine (colsAt_succ m c ⟨n + 1, hn⟩ h0 b).trans ?_
      change step _ _ (colsAt m c n (Nat.lt_of_succ_lt hn) b) = _
      rw [ih]
      exact step_eq m c tg htg ⟨n + 1, hn⟩ (k + 1) hk b _

/-- A component of a state by its number: maximum, sum, target sum. -/
def stComp (s : St) : ℕ → EReal
  | 0 => s.1
  | 1 => s.2.1
  | _ => s.2.2

/-- The whole output array: entry `(cc, b, i)` is component `i` of core `cc`'s walk for row `b` after its 32 blocks. -/
def coreRows (X : FVec Ideal SIn .f32) (B : FVec Ideal SBank .f32) (tg : IVec SRow 32) : Vec Ideal S2x256x3 .f32 :=
  fun i => stComp (coreState X B tg ⟨(i 0).val, (i 0).isLt⟩ ⟨(i 1).val, (i 1).isLt⟩) (i 2).val

/-- Its three entries for a core and a row are that core's state for the row. -/
theorem coreRows_apply (X : FVec Ideal SIn .f32) (B : FVec Ideal SBank .f32) (tg : IVec SRow 32) (cc : Fin 2) (b : Fin 256) :
    ((coreRows X B tg (ix3 cc b 0) : EReal), (coreRows X B tg (ix3 cc b 1) : EReal), (coreRows X B tg (ix3 cc b 2) : EReal))
      = coreState X B tg cc b := by
  show (stComp (coreState X B tg cc b) 0, stComp (coreState X B tg cc b) 1, stComp (coreState X B tg cc b) 2) = _
  generalize coreState X B tg cc b = s
  rfl

/-- What a core's last point leaves in the output block is, entry by entry, the core's rows of `coreRows`. -/
theorem out_at (c : Dev nD) (tg : IVec SRow 32) (htg : ∀ b : Fin 256, tarr m c (ix2 b 0) = tg (ix1 b))
    (t : Fin cfg0.N) (h1 : t.val % 32 = 31) (y : S1x256x3.Idx) (i : S2x256x3.Idx)
    (e0 : (i 0).val = t.val / 32) (e1 : (i 1).val = (y 1).val) (e2 : (i 2).val = (y 2).val) :
    (outsAt0 m c t.val t.isLt).1 y = coreRows (xarr m c) (barr m c) tg i := by
  obtain ⟨a, b, k, rfl⟩ : ∃ (a : Fin 1) (b : Fin 256) (k : Fin 3), y = ix3 a b k := ⟨y 0, y 1, y 2, eq_ix3 y⟩
  obtain rfl : a = 0 := Subsingleton.elim _ _
  have hcore : (⟨(i 0).val, (i 0).isLt⟩ : Fin 2) = coreOf t := Fin.ext e0
  have hrow : (⟨(i 1).val, (i 1).isLt⟩ : Fin 256) = b := Fin.ext e1
  have hw : colsAt m c t.val t.isLt b
      = walk (blkLogit (xarr m c) (barr m c) (coreOf t) b) (blkHit tg (coreOf t) b) 31 := by
    have h := cols_walk m c tg htg t.val t.isLt b
    rw [h1] at h
    exact h
  obtain ⟨o0, o1, o2⟩ := outBlk_C m c t h1 b
  unfold coreRows coreState
  rw [hcore, hrow, e2, ← hw]
  match k with
  | ⟨0, _⟩ => exact o0
  | ⟨1, _⟩ => exact o1
  | ⟨2, _⟩ => exact o2

/-- WHAT A CORE'S LAST POINT WRITES BACK is its block of `coreRows`. -/
theorem flushed_eq (c : Dev nD) (tg : IVec SRow 32) (htg : ∀ b : Fin 256, tarr m c (ix2 b 0) = tg (ix1 b))
    (t : Fin cfg0.N) (hf : (cfg0.win 3).flush t = true) :
    (dats m 0 c).flushed 3 t = ((cfg0.win 3).blk t).view.read (Elt Ideal) (coreRows (xarr m c) (barr m c) tg) := by
  have h1 : t.val % 32 = 31 := (flush0_3 t).mp hf
  obtain ⟨-, -, -, -, -, -, q0, q1, q2⟩ := idx_facts t
  show (cfg0.win 3).cut (grid0.coords t) ((dats m 0 c).after 3 t) = _
  rw [after0_3]
  funext j
  have hj : (j 0).val < 1 := (j 0).isLt
  refine out_at m c tg htg t h1 _ (((cfg0.win 3).blk t).view.emb j) ?_ ?_ ?_
  · show win0_3.index t (0 : Fin 3) * 1 + 1 * (j 0).val = t.val / 32
    rw [q0]; omega
  · show win0_3.index t (1 : Fin 3) * 256 + 1 * (j 1).val = (j 1).val
    rw [q1]; omega
  · show win0_3.index t (2 : Fin 3) * 3 + 1 * (j 2).val = (j 2).val
    rw [q2]; omega

/-- An entry of the output array is in a point's block iff each coordinate is in the block's range on its axis. -/
theorem mem_blk (t : Fin cfg0.N) (i : S2x256x3.Idx) :
    i ∈ ((cfg0.win 3).blk t).view.set ↔ ∀ a : Fin 3, win0_3.index t a * S1x256x3.size a ≤ (i a).val
      ∧ (i a).val < win0_3.index t a * S1x256x3.size a + S1x256x3.size a := by
  show i ∈ ((View.whole main_v4).slice (win0_3.rect t)).set ↔ _
  rw [View.set_slice_whole, Rect.mem_set_unit]
  exact Iff.rfl

/-- The two cores' last points tile the output array: entry `(cc, ·, ·)` is in the block of point `cc * 32 + 31`. -/
theorem lastPoints_cover (i : S2x256x3.Idx) :
    ∃ t : Fin cfg0.N, (cfg0.win 3).flush t = true ∧ i ∈ ((cfg0.win 3).blk t).view.set := by
  have hi0 : (i 0).val < 2 := (i 0).isLt
  have hi1 : (i 1).val < 256 := (i 1).isLt
  have hi2 : (i 2).val < 3 := (i 2).isLt
  obtain ⟨t, ht⟩ : ∃ t : Fin cfg0.N, t.val = (i 0).val * 32 + 31 :=
    ⟨⟨(i 0).val * 32 + 31, lt_of_lt_of_eq (by omega : (i 0).val * 32 + 31 < 64) N_0.symm⟩, rfl⟩
  obtain ⟨-, -, -, -, -, -, q0, q1, q2⟩ := idx_facts t
  refine ⟨t, (flush0_3 t).mpr (by rw [ht]; omega), ?_⟩
  rw [mem_blk]
  intro a
  match a with
  | ⟨0, _⟩ =>
    show win0_3.index t (0 : Fin 3) * 1 ≤ (i 0).val ∧ (i 0).val < win0_3.index t (0 : Fin 3) * 1 + 1
    rw [q0, ht]; omega
  | ⟨1, _⟩ =>
    show win0_3.index t (1 : Fin 3) * 256 ≤ (i 1).val ∧ (i 1).val < win0_3.index t (1 : Fin 3) * 256 + 256
    rw [q1]; omega
  | ⟨2, _⟩ =>
    show win0_3.index t (2 : Fin 3) * 3 ≤ (i 2).val ∧ (i 2).val < win0_3.index t (2 : Fin 3) * 3 + 3
    rw [q2]; omega

/-- So the output array ends holding `coreRows`. -/
theorem outArr_eq (c : Dev nD) (tg : IVec SRow 32) (htg : ∀ b : Fin 256, tarr m c (ix2 b 0) = tg (ix1 b)) :
    outArr m c = coreRows (xarr m c) (barr m c) tg :=
  (dats m 0 c).arrAt_eq_of_cover 3 (coreRows (xarr m c) (barr m c) tg) (fun t hf => flushed_eq m c tg htg t hf) lastPoints_cover

/-- After the region, entries `(cc, b, 0)`, `(cc, b, 1)`, `(cc, b, 2)` of the output array are core `cc`'s running
    maximum, running sum and target sum for row `b` after its 32 blocks. -/
theorem outArr_apply (c : Dev nD) (tg : IVec SRow 32)
    (htg : ∀ b : Fin 256, tarr m c (ix2 b 0) = tg (ix1 b)) (cc : Fin 2) (b : Fin 256) :
    ((outArr m c (ix3 cc b 0) : EReal), (outArr m c (ix3 cc b 1) : EReal), (outArr m c (ix3 cc b 2) : EReal))
      = coreState (xarr m c) (barr m c) tg cc b := by
  have e := outArr_eq m c tg htg
  rw [congrFun e (ix3 cc b 0), congrFun e (ix3 cc b 1), congrFun e (ix3 cc b 2)]
  exact coreRows_apply (xarr m c) (barr m c) tg cc b

end Cert.KernelIdeal.KInv

end
-- ==== Proof.KRun.lean ====
/-
  The kernel's program ends at the mean of the merged walks.

  Before the region the host normalises the inputs and reshapes the targets to a column; the region leaves,
  for each core `c` and row `b`, the triple `(m, l, t)` of core `c`'s walk over its 32 blocks in the output array at
  `(c, b, 0..2)`; after the region the host slices the six columns out, merges the two cores' triples row by
  row, and averages.
-/
import proofs.«420116_j37349035606124_2_alg».proof.Proof.Gen.KernelIdeal.Frame
import proofs.«420116_j37349035606124_2_alg».proof.Proof.KInv
import proofs.«420116_j37349035606124_2_alg».proof.Proof.Rows
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.KRun

open Cert.KernelIdeal Cert.KernelIdeal.Gen Idealize.ShloMosaic Idealize.ShloMosaic.TcCoe Idealize.SL.Sem
open Idealize.ShloMosaic.ValueIdx Cert.Rows

section Pieces

variable (m : (ℓ : Loc nD τ sig) → Buf (Elt Ideal) ℓ)

/-! ## Before the region -/

/-- The region finds the inputs normalised: the eight operations before it are `normalize`'s. -/
theorem xarr_eq (c : Dev nD) : KInv.xarr m c = normalize (m ((c.tc : Thread nD τ).loc main_arg0)) := by
  show (V m c main_v2 : Vec Ideal S256x2048 .f32) = _
  dsimp only [Gen.V, Gen.V0]
  simp only [Gen.hostOps0, Gen.hostOps0_1, List.flatten_cons, List.flatten_nil, List.append_nil, List.cons_append, List.nil_append]
  after_results
  rfl

/-- The region finds the bank as launched. -/
theorem barr_eq (c : Dev nD) : KInv.barr m c = m ((c.tc : Thread nD τ).loc main_arg3) := V_main_arg3 m c

/-- The region finds the targets reshaped to a column. -/
theorem tarr_eq (c : Dev nD) :
    KInv.tarr m c = shapeCast S256x1 (m ((c.tc : Thread nD τ).loc main_arg1) : IVec S256 32) shapeCasts_S256_S256x1 := by
  show (V m c main_v3 : Vec Ideal S256x1 .i32) = _
  dsimp only [Gen.V, Gen.V0]
  simp only [Gen.hostOps0, Gen.hostOps0_1, List.flatten_cons, List.flatten_nil, List.append_nil, List.cons_append, List.nil_append]
  after_results
  rfl

/-- Row `b` of the targets column is target `b`. -/
theorem tarr_apply (c : Dev nD) (b : Fin 256) :
    KInv.tarr m c (ix2 b 0) = (m ((c.tc : Thread nD τ).loc main_arg1) : IVec SRow 32) (ix1 b) := by
  rw [tarr_eq]
  refine shapeCast_apply (s := S256) (t := S256x1) _ _ (ix2 b 0) (ix1 b) ?_
  rw [Shape.rowMajor_val_one, Shape.rowMajor_val_two]
  show b.val = b.val * 1 + 0
  omega

/-! ## After the region -/

/-- A `[1, 256, 1]` slice of the output array as a column. -/
def col (A : FVec Ideal S2x256x3 .f32) (off : Fin 3 → ℕ) (h : S2x256x3.Slices off S1x256x1) : FVec Ideal S256x1 .f32 :=
  shapeCast S256x1 (extractStridedSlice S1x256x1 off A h) shapeCasts_S1x256x1_S256x1

/-- Row `b` of the column cut at `(cc, 0, i)` is entry `(cc, b, i)`. -/
theorem col_apply (A : FVec Ideal S2x256x3 .f32) (off : Fin 3 → ℕ) (h : S2x256x3.Slices off S1x256x1)
    (cc : Fin 2) (i : Fin 3) (h0 : off 0 = cc.val) (h1 : off 1 = 0) (h2 : off 2 = i.val) (b : Fin 256) :
    col A off h (ix2 b 0) = A (ix3 cc b i) := by
  unfold col
  refine (shapeCast_1ab_ab_apply _ _ b 0).trans ?_
  refine extractStridedSlice_apply (s := S2x256x3) (t := S1x256x1) off A h _ (ix3 cc b i) fun a => ?_
  match a with
  | ⟨0, _⟩ => show cc.val = off 0 + 0; omega
  | ⟨1, _⟩ => show b.val = off 1 + b.val; omega
  | ⟨2, _⟩ => show i.val = off 2 + 0; omega

/-- The six columns merged row by row: the twenty operations between the slices and the closing average. -/
def lossOf (m0 l0 t0 m1 l1 t1 : FVec Ideal S256x1 .f32) : FVec Ideal S256x1 .f32 :=
  Host.negf (subf (addf t0 t1) (addf (maximumf m0 m1) (Host.log (addf
    (mulf l0 (Host.exp (subf m0 (maximumf m0 m1)))) (mulf l1 (Host.exp (subf m1 (maximumf m0 m1))))))))

/-- At a row the merged column is `merged` of the two triples. -/
theorem lossOf_apply (m0 l0 t0 m1 l1 t1 : FVec Ideal S256x1 .f32) (j : S256x1.Idx) :
    (lossOf m0 l0 t0 m1 l1 t1 j : EReal) = Stream.merged (m0 j, l0 j, t0 j) (m1 j, l1 j, t1 j) := rfl

/-- The host's thirty operations after the region, as one function of the output array. -/
def tailOf (A : FVec Ideal S2x256x3 .f32) : FVec Ideal S_ .f32 :=
  Host.divf (Host.reduceAdd (shapeCast S256 (lossOf
      (col A ![0, 0, 0] slices_S2x256x3_S1x256x1_0_0_0) (col A ![0, 0, 1] slices_S2x256x3_S1x256x1_0_0_1)
      (col A ![0, 0, 2] slices_S2x256x3_S1x256x1_0_0_2) (col A ![1, 0, 0] slices_S2x256x3_S1x256x1_1_0_0)
      (col A ![1, 0, 1] slices_S2x256x3_S1x256x1_1_0_1) (col A ![1, 0, 2] slices_S2x256x3_S1x256x1_1_0_2))
      shapeCasts_S256x1_S256) (constant (F := Ideal) S_ .f32 0x00000000#32) reducesTo_S256_S_d0 h_S_)
    (constant (F := Ideal) S_ .f32 0x43800000#32)

/-- If every row's two triples merge to `v`'s entry, the tail is the mean of `v`. -/
theorem tailOf_eq (A : FVec Ideal S2x256x3 .f32) (v : FVec Ideal SRow .f32)
    (hv : ∀ b : Fin 256, Stream.merged (A (ix3 0 b 0), A (ix3 0 b 1), A (ix3 0 b 2)) (A (ix3 1 b 0), A (ix3 1 b 1), A (ix3 1 b 2)) = v (ix1 b)) :
    tailOf A = meanLoss v := by
  have e : shapeCast S256 (lossOf
      (col A ![0, 0, 0] slices_S2x256x3_S1x256x1_0_0_0) (col A ![0, 0, 1] slices_S2x256x3_S1x256x1_0_0_1)
      (col A ![0, 0, 2] slices_S2x256x3_S1x256x1_0_0_2) (col A ![1, 0, 0] slices_S2x256x3_S1x256x1_1_0_0)
      (col A ![1, 0, 1] slices_S2x256x3_S1x256x1_1_0_1) (col A ![1, 0, 2] slices_S2x256x3_S1x256x1_1_0_2))
      shapeCasts_S256x1_S256 = v := by
    funext i
    obtain ⟨b, rfl⟩ : ∃ b : Fin 256, i = ix1 b := ⟨i 0, eq_ix1 i⟩
    refine (shapeCast_apply (s := S256x1) (t := S256) _ _ (ix1 b) (ix2 b 0) ?_).trans ?_
    · rw [Shape.rowMajor_val_one, Shape.rowMajor_val_two]
      show b.val * 1 + 0 = b.val
      omega
    · rw [lossOf_apply, col_apply A ![0, 0, 0] _ 0 0 rfl rfl rfl, col_apply A ![0, 0, 1] _ 0 1 rfl rfl rfl,
        col_apply A ![0, 0, 2] _ 0 2 rfl rfl rfl, col_apply A ![1, 0, 0] _ 1 0 rfl rfl rfl,
        col_apply A ![1, 0, 1] _ 1 1 rfl rfl rfl, col_apply A ![1, 0, 2] _ 1 2 rfl rfl rfl]
      exact hv b
  unfold tailOf meanLoss
  rw [e]

/-- From any contents with the output array at `A`, the thirty operations leave `tailOf A` as the result. -/
theorem after_tail (W : Valuation τ sig (Elt Ideal)) (A : FVec Ideal S2x256x3 .f32)
    (hW : (W (Proc.devRef .tc main_v4) : FVec Ideal S2x256x3 .f32) = A) :
    (StableHlo.after hostOps1 W (Proc.devRef .tc main_v32) : FVec Ideal S_ .f32) = tailOf A := by
  subst hW
  after_results_simp
  rfl

/-- What the run leaves as the result: the tail of the output array after the region. -/
theorem tail_v32 (c : Dev nD) :
    (Pipeline.afterTail₀ cfgs (dats m) 0 (V0 m) [hostOps1] c main_v32 : FVec Ideal S_ .f32) = tailOf (KInv.outArr m c) := by
  unfold Pipeline.afterTail₀
  show StableHlo.after hostOps1 _ (Proc.devRef .tc main_v32) = _
  exact after_tail _ _ (Pipeline.withArrays_arr spec0 launch0.win.arr_inj c _ _ 3)

/-- The tail of the output array after the region is the mean of the kernel's 256 losses. -/
theorem tail_outArr (c : Dev nD) :
    tailOf (KInv.outArr m c)
      = meanLoss (kernelRows (normalize (m ((c.tc : Thread nD τ).loc main_arg0)))
          (m ((c.tc : Thread nD τ).loc main_arg3)) (m ((c.tc : Thread nD τ).loc main_arg1))) := by
  refine tailOf_eq _ _ fun b => ?_
  have h0 := KInv.outArr_apply m c (m ((c.tc : Thread nD τ).loc main_arg1)) (tarr_apply m c) 0 b
  have h1 := KInv.outArr_apply m c (m ((c.tc : Thread nD τ).loc main_arg1)) (tarr_apply m c) 1 b
  rw [xarr_eq, barr_eq] at h0 h1
  rw [h0, h1]
  rfl

end Pieces

/-! ## The run -/

/-- Every weakly fair execution of the program ends with the mean of the merged walks as its result and the four
    arguments as launched: the result is read off the run's post as the host's tail applied to the output array, the
    arguments as the buffers no operation writes and the bank as an input the region only reads. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32)
          = meanLoss (kernelRows (normalize (m ((c.tc : Thread nD τ).loc main_arg0)))
              (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v32 (Pipeline.mem_restRefs_of main_v32 (by decide) (by decide))).trans (tail_v32 m c)).trans (tail_outArr m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩) (run_main m ρ)

end Cert.KernelIdeal.KRun

end
-- ==== Proof.RefRunBy.lean ====
/-
  The reference program runs to its stages.

  The reference is a straight line of 56 host operations; none of them writes an argument, and each writes
  one fresh buffer from buffers written earlier. So every execution ends with each buffer at the value its
  operation computes from its operands' values, and by induction along the line the result buffer holds the
  last stage: the composition of the stages from the arguments. The line is walked a stretch of operations at
  a time: after each stretch the buffers written so far hold their stages, which is all the next stretch
  reads.
-/
import proofs.«420116_j37349035606124_2_alg».proof.Proof.RefRead
import Idealize.ShloMosaic.Lib.StableHlo.Run

noncomputable section

namespace Cert.ReferenceIdeal.RunBy

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Operations 1 to 8: the row norms, the normalized rows, the transposed table. -/
abbrev stretch1 : List (HloOp τ sig (Elt F)) :=
  [ TRef.binary (TRef.of (T := ⟨S256x2048, .f32⟩) main_arg0) (TRef.of (T := ⟨S256x2048, .f32⟩) main_arg0) (TRef.of (T := ⟨S256x2048, .f32⟩) main_call0_v0) mulf,
    TRef.nullary (TRef.of (T := ⟨S_, .f32⟩) main_call0_cst) (constant S_ .f32 0x00000000#32),
    TRef.binary (TRef.of (T := ⟨S256x2048, .f32⟩) main_call0_v0) (TRef.of (T := ⟨S_, .f32⟩) main_call0_cst) (TRef.of (T := ⟨S256, .f32⟩) main_call0_v1) (fun x v => Host.reduceAdd x v reducesTo_S256x2048_S256_d1 h_S_),
    TRef.unary (TRef.of (T := ⟨S256, .f32⟩) main_call0_v1) (TRef.of (T := ⟨S256x1, .f32⟩) main_call0_v2) (broadcastInDim S256x1 ![0] bcast_S256_S256x1_0),
    TRef.unary (TRef.of (T := ⟨S256x1, .f32⟩) main_call0_v2) (TRef.of (T := ⟨S256x1, .f32⟩) main_v0) Host.sqrt,
    unary main_v0 main_v1 (broadcastInDim S256x2048 ![0, 1] bcast_S256x1_S256x2048_0_1 : (⟨S256x1, .f32⟩ : BufTy).Contents (Elt F) → (⟨S256x2048, .f32⟩ : BufTy).Contents (Elt F)),
    binary main_arg0 main_v1 main_v2 (Host.divf : (⟨S256x2048, .f32⟩ : BufTy).Contents (Elt F) → (⟨S256x2048, .f32⟩ : BufTy).Contents (Elt F) → (⟨S256x2048, .f32⟩ : BufTy).Contents (Elt F)),
    unary main_arg3 main_v3 ((transpose S2048x65536 [1, 0] · transposes_S65536x2048_S2048x65536_1_0) : (⟨S65536x2048, .f32⟩ : BufTy).Contents (Elt F) → (⟨S2048x65536, .f32⟩ : BufTy).Contents (Elt F)) ]

/-- Operations 9 to 16: the scaled products, their row maxima, the constant row of minus infinity. -/
abbrev stretch2 : List (HloOp τ sig (Elt F)) :=
  [ binary main_v2 main_v3 main_v4 ((fun l r => Host.dotGeneral dot_S256x2048_S2048x65536_S256x65536_1_0_0_1_n_n none l r) : (⟨S256x2048, .f32⟩ : BufTy).Contents (Elt F) → (⟨S2048x65536, .f32⟩ : BufTy).Contents (Elt F) → (⟨S256x65536, .f32⟩ : BufTy).Contents (Elt F)),
    nullary main_cst (constant S_ .f32 0x3D4CCCCD#32),
    unary main_cst main_v5 (broadcastInDim S256x65536 ![] bcast_S_S256x65536 : (⟨S_, .f32⟩ : BufTy).Contents (Elt F) → (⟨S256x65536, .f32⟩ : BufTy).Contents (Elt F)),
    binary main_v4 main_v5 main_v6 (Host.divf : (⟨S256x65536, .f32⟩ : BufTy).Contents (Elt F) → (⟨S256x65536, .f32⟩ : BufTy).Contents (Elt F) → (⟨S256x65536, .f32⟩ : BufTy).Contents (Elt F)),
    TRef.nullary (TRef.of (T := ⟨S_, .f32⟩) main_call1_cst) (constant S_ .f32 0xFF800000#32),
    TRef.binary (TRef.of (T := ⟨S256x65536, .f32⟩) main_v6) (TRef.of (T := ⟨S_, .f32⟩) main_call1_cst) (TRef.of (T := ⟨S256, .f32⟩) main_call1_v0) (fun x v => Host.reduce FloatOps.maximumf x v reducesTo_S256x65536_S256_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S256, .f32⟩) main_call1_v1) (broadcastInDim S256 ![] bcast_S_S256) ]

/-- Operations 17 to 24: the shifted products, and the row sums of their exponentials. -/
abbrev stretch3 : List (HloOp τ sig (Elt F)) :=
  [ TRef.binary (TRef.of (T := ⟨S256, .f32⟩) main_call1_v1) (TRef.of (T := ⟨S256, .f32⟩) main_call1_v0) (TRef.of (T := ⟨S256, .f32⟩) main_call1_v2) maximumf,
    TRef.unary (TRef.of (T := ⟨S256, .f32⟩) main_call1_v2) (TRef.of (T := ⟨S256x1, .f32⟩) main_call1_v3) (broadcastInDim S256x1 ![0] bcast_S256_S256x1_0),
    TRef.unary (TRef.of (T := ⟨S256x1, .f32⟩) main_call1_v3) (TRef.of (T := ⟨S256x65536, .f32⟩) main_call1_v4) (broadcastInDim S256x65536 ![0, 1] bcast_S256x1_S256x65536_0_1),
    TRef.binary (TRef.of (T := ⟨S256x65536, .f32⟩) main_v6) (TRef.of (T := ⟨S256x65536, .f32⟩) main_call1_v4) (TRef.of (T := ⟨S256x65536, .f32⟩) main_call1_v5) subf,
    TRef.unary (TRef.of (T := ⟨S256x65536, .f32⟩) main_call1_v5) (TRef.of (T := ⟨S256x65536, .f32⟩) main_call1_v6) Host.exp,
    TRef.nullary (TRef.of (T := ⟨S_, .f32⟩) main_call1_cst_1) (constant S_ .f32 0x00000000#32),
    TRef.binary (TRef.of (T := ⟨S256x65536, .f32⟩) main_call1_v6) (TRef.of (T := ⟨S_, .f32⟩) main_call1_cst_1) (TRef.of (T := ⟨S256, .f32⟩) main_call1_v7) (fun x v => Host.reduceAdd x v reducesTo_S256x65536_S256_d1 h_S_),
    TRef.unary (TRef.of (T := ⟨S256, .f32⟩) main_call1_v7) (TRef.of (T := ⟨S256x1, .f32⟩) main_call1_v8) (broadcastInDim S256x1 ![0] bcast_S256_S256x1_0) ]

/-- Operations 25 to 32: the logarithm of the row sums, the log-softmax, the labels as a column and whether each is negative. -/
abbrev stretch4 : List (HloOp τ sig (Elt F)) :=
  [ TRef.unary (TRef.of (T := ⟨S256x1, .f32⟩) main_call1_v8) (TRef.of (T := ⟨S256x1, .f32⟩) main_call1_v9) Host.log,
    TRef.unary (TRef.of (T := ⟨S256x1, .f32⟩) main_call1_v9) (TRef.of (T := ⟨S256x65536, .f32⟩) main_call1_v10) (broadcastInDim S256x65536 ![0, 1] bcast_S256x1_S256x65536_0_1),
    TRef.binary (TRef.of (T := ⟨S256x65536, .f32⟩) main_call1_v5) (TRef.of (T := ⟨S256x65536, .f32⟩) main_call1_v10) (TRef.of (T := ⟨S256x65536, .f32⟩) main_v7) subf,
    unary main_arg1 main_v8 (broadcastInDim S256x1 ![0] bcast_S256_S256x1_0 : (⟨S256, .i32⟩ : BufTy).Contents (Elt F) → (⟨S256x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S256x1, .i32⟩) main_call2_v0) (broadcastInDim S256x1 ![] bcast_S_S256x1),
    TRef.binary (TRef.of (T := ⟨S256x1, .i32⟩) main_v8) (TRef.of (T := ⟨S256x1, .i32⟩) main_call2_v0) (TRef.of (T := ⟨S256x1, .i1⟩) main_call2_v1) (cmpi .slt),
    TRef.nullary (TRef.of (T := ⟨S_, .i32⟩) main_call2_c_0) (constantI S_ 32 65536#32) ]

/-- Operations 33 to 40: the labels wrapped into range, as gather indices, and whether each is at least zero. -/
abbrev stretch5 : List (HloOp τ sig (Elt F)) :=
  [ TRef.unary (TRef.of (T := ⟨S_, .i32⟩) main_call2_c_0) (TRef.of (T := ⟨S256x1, .i32⟩) main_call2_v2) (broadcastInDim S256x1 ![] bcast_S_S256x1),
    TRef.binary (TRef.of (T := ⟨S256x1, .i32⟩) main_v8) (TRef.of (T := ⟨S256x1, .i32⟩) main_call2_v2) (TRef.of (T := ⟨S256x1, .i32⟩) main_call2_v3) addi,
    TRef.ternary (TRef.of (T := ⟨S256x1, .i1⟩) main_call2_v1) (TRef.of (T := ⟨S256x1, .i32⟩) main_call2_v3) (TRef.of (T := ⟨S256x1, .i32⟩) main_v8) (TRef.of (T := ⟨S256x1, .i32⟩) main_call2_v4) select,
    TRef.reshape (TRef.of (T := ⟨S256x1, .i32⟩) main_call2_v4) (TRef.of (T := ⟨S256x1x1, .i32⟩) main_call2_v5) rfl shapeCasts_S256x1_S256x1x1,
    TRef.nullary (TRef.of (T := ⟨S1, .i32⟩) main_call2_c_1) (constantI S1 32 65535#32),
    TRef.nullary (TRef.of (T := ⟨S_, .i32⟩) main_call2_c_2) (constantI S_ 32 0#32),
    TRef.unary (TRef.of (T := ⟨S_, .i32⟩) main_call2_c_2) (TRef.of (T := ⟨S256x1x1, .i32⟩) main_call2_v6) (broadcastInDim S256x1x1 ![] bcast_S_S256x1x1),
    TRef.binary (TRef.of (T := ⟨S256x1x1, .i32⟩) main_call2_v5) (TRef.of (T := ⟨S256x1x1, .i32⟩) main_call2_v6) (TRef.of (T := ⟨S256x1x1, .i1⟩) main_call2_v7) (cmpi .sge) ]

/-- Operations 41 to 48: whether each index is in range, and the log-softmax gathered at the indices. -/
abbrev stretch6 : List (HloOp τ sig (Elt F)) :=
  [ TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S256x1x1, .i32⟩) main_call2_v9) (broadcastInDim S256x1x1 ![0, 1, 2] bcast_S1x1x1_S256x1x1_0_1_2),
    TRef.binary (TRef.of (T := ⟨S256x1x1, .i32⟩) main_call2_v5) (TRef.of (T := ⟨S256x1x1, .i32⟩) main_call2_v9) (TRef.of (T := ⟨S256x1x1, .i1⟩) main_call2_v10) (cmpi .sle),
    TRef.binary (TRef.of (T := ⟨S256x1x1, .i1⟩) main_call2_v7) (TRef.of (T := ⟨S256x1x1, .i1⟩) main_call2_v10) (TRef.of (T := ⟨S256x1x1, .i1⟩) main_call2_v11) andi,
    TRef.nullary (TRef.of (T := ⟨S_, .i1⟩) main_call2_c_3) (constantI S_ 1 1#1),
    TRef.binary (TRef.of (T := ⟨S256x1x1, .i1⟩) main_call2_v11) (TRef.of (T := ⟨S_, .i1⟩) main_call2_c_3) (TRef.of (T := ⟨S256x1, .i1⟩) main_call2_v12) (fun x v => Host.reduce IntOp.andi x v reducesTo_S256x1x1_S256x1_d2 h_S_),
    TRef.binary (TRef.of (T := ⟨S256x65536, .f32⟩) main_v7) (TRef.of (T := ⟨S256x1x1, .i32⟩) main_call2_v5) (TRef.of (T := ⟨S256x1, .f32⟩) main_call2_v13) (fun x i => Host.gather gather_S256x65536_S256x1x1_S256x1_n_1_0_0_1_2_11 x i),
    TRef.nullary (TRef.of (T := ⟨S_, .f32⟩) main_call2_cst) (constant S_ .f32 0x7FC00000#32) ]

/-- Operations 49 to 56: the gathered entries where the index is in range, negated, summed and divided by the number of rows. -/
abbrev stretch7 : List (HloOp τ sig (Elt F)) :=
  [ TRef.unary (TRef.of (T := ⟨S_, .f32⟩) main_call2_cst) (TRef.of (T := ⟨S256x1, .f32⟩) main_call2_v14) (broadcastInDim S256x1 ![] bcast_S_S256x1),
    TRef.ternary (TRef.of (T := ⟨S256x1, .i1⟩) main_call2_v12) (TRef.of (T := ⟨S256x1, .f32⟩) main_call2_v13) (TRef.of (T := ⟨S256x1, .f32⟩) main_call2_v14) (TRef.of (T := ⟨S256x1, .f32⟩) main_v9) select,
    reshape main_v9 main_v10 rfl shapeCasts_S256x1_S256,
    unary main_v10 main_v11 (Host.negf : (⟨S256, .f32⟩ : BufTy).Contents (Elt F) → (⟨S256, .f32⟩ : BufTy).Contents (Elt F)),
    nullary main_cst_0 (constant S_ .f32 0x00000000#32),
    binary main_v11 main_cst_0 main_v12 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_1 (constant S_ .f32 0x43800000#32),
    binary main_v12 main_cst_1 main_v13 (Host.divf : (⟨S_, .f32⟩ : BufTy).Contents (Elt F) → (⟨S_, .f32⟩ : BufTy).Contents (Elt F) → (⟨S_, .f32⟩ : BufTy).Contents (Elt F)) ]

/-- The line of operations is its seven stretches in a row. -/
theorem ops_eq_stretches : (ops : List (HloOp τ sig (Elt F))) = stretch1 ++ (stretch2 ++ (stretch3 ++ (stretch4 ++ (stretch5 ++ (stretch6 ++ stretch7))))) := rfl

/-- From any contents, after the first stretch: the normalized rows and the transposed table are at their stages of the first and
    fourth arguments found there, and the second argument is unchanged. -/
theorem after_stretch1 (W : Valuation τ sig (Elt F)) :
    after stretch1 W (Proc.devRef .tc main_v2) = val_main_v2 (F := F) (W (Proc.devRef .tc main_arg0))
    ∧ after stretch1 W (Proc.devRef .tc main_v3) = val_main_v3 (F := F) (W (Proc.devRef .tc main_arg3))
    ∧ after stretch1 W (Proc.devRef .tc main_arg1) = W (Proc.devRef .tc main_arg1) := by
  refine ⟨?_, ?_, ?_⟩
  · after_results_simp; rfl
  · after_results_simp; rfl
  · after_results_simp

/-- From contents with the normalized rows and the transposed table at their stages, after the second stretch: the scaled products, their
    row maxima and the constant row are at their stages. -/
theorem after_stretch2 (x0 : (⟨S256x2048, .f32⟩ : BufTy).Contents (Elt F)) (x1 : (⟨S256, .i32⟩ : BufTy).Contents (Elt F)) (x3 : (⟨S65536x2048, .f32⟩ : BufTy).Contents (Elt F)) (W : Valuation τ sig (Elt F))
    (h2 : W (Proc.devRef .tc main_v2) = val_main_v2 (F := F) x0) (h3 : W (Proc.devRef .tc main_v3) = val_main_v3 (F := F) x3)
    (ha : W (Proc.devRef .tc main_arg1) = x1) :
    after stretch2 W (Proc.devRef .tc main_v6) = val_main_v6 (F := F) x0 x3
    ∧ after stretch2 W (Proc.devRef .tc main_call1_v0) = val_main_call1_v0 (F := F) x0 x3
    ∧ after stretch2 W (Proc.devRef .tc main_call1_v1) = val_main_call1_v1 (F := F)
    ∧ after stretch2 W (Proc.devRef .tc main_arg1) = x1 := by
  refine ⟨?_, ?_, ?_, ?_⟩
  · after_results_simp; rw [h2, h3]; rfl
  · after_results_simp; simp only [cast_eq]; rw [h2, h3]; rfl
  · after_results_simp; rfl
  · after_results_simp; exact ha

/-- From contents with the scaled products, their row maxima and the constant row at their stages, after the third stretch: the shifted
    products and the row sums of their exponentials are at their stages. -/
theorem after_stretch3 (x0 : (⟨S256x2048, .f32⟩ : BufTy).Contents (Elt F)) (x1 : (⟨S256, .i32⟩ : BufTy).Contents (Elt F)) (x3 : (⟨S65536x2048, .f32⟩ : BufTy).Contents (Elt F)) (W : Valuation τ sig (Elt F))
    (h6 : W (Proc.devRef .tc main_v6) = val_main_v6 (F := F) x0 x3)
    (hm : W (Proc.devRef .tc main_call1_v0) = val_main_call1_v0 (F := F) x0 x3)
    (hi : W (Proc.devRef .tc main_call1_v1) = val_main_call1_v1 (F := F))
    (ha : W (Proc.devRef .tc main_arg1) = x1) :
    after stretch3 W (Proc.devRef .tc main_call1_v5) = val_main_call1_v5 (F := F) x0 x3
    ∧ after stretch3 W (Proc.devRef .tc main_call1_v8) = val_main_call1_v8 (F := F) x0 x3
    ∧ after stretch3 W (Proc.devRef .tc main_arg1) = x1 := by
  refine ⟨?_, ?_, ?_⟩
  · after_results_simp; simp only [cast_eq]; rw [h6, hm, hi]; rfl
  · after_results_simp; simp only [cast_eq]; rw [h6, hm, hi]; rfl
  · after_results_simp; exact ha

/-- From contents with the shifted products and the row sums at their stages and the second argument at `x1`, after the fourth stretch:
    the log-softmax, the column of labels, its sign test and the constant read next are at their stages. -/
theorem after_stretch4 (x0 : (⟨S256x2048, .f32⟩ : BufTy).Contents (Elt F)) (x1 : (⟨S256, .i32⟩ : BufTy).Contents (Elt F)) (x3 : (⟨S65536x2048, .f32⟩ : BufTy).Contents (Elt F)) (W : Valuation τ sig (Elt F))
    (h5 : W (Proc.devRef .tc main_call1_v5) = val_main_call1_v5 (F := F) x0 x3)
    (h8 : W (Proc.devRef .tc main_call1_v8) = val_main_call1_v8 (F := F) x0 x3)
    (ha : W (Proc.devRef .tc main_arg1) = x1) :
    after stretch4 W (Proc.devRef .tc main_v7) = val_main_v7 (F := F) x0 x3
    ∧ after stretch4 W (Proc.devRef .tc main_v8) = val_main_v8 (F := F) x1
    ∧ after stretch4 W (Proc.devRef .tc main_call2_v1) = val_main_call2_v1 (F := F) x1
    ∧ after stretch4 W (Proc.devRef .tc main_call2_c_0) = val_main_call2_c_0 (F := F) := by
  refine ⟨?_, ?_, ?_, ?_⟩
  · after_results_simp; simp only [cast_eq]; rw [h5, h8]; rfl
  · after_results_simp; rw [ha]; rfl
  · after_results_simp; simp only [cast_eq]; rw [ha]; rfl
  · after_results_simp; rfl

/-- From contents with those at their stages, after the fifth stretch: the log-softmax still is, and the gather indices, the upper bound
    and the lower-bound test are at their stages. -/
theorem after_stretch5 (x0 : (⟨S256x2048, .f32⟩ : BufTy).Contents (Elt F)) (x1 : (⟨S256, .i32⟩ : BufTy).Contents (Elt F)) (x3 : (⟨S65536x2048, .f32⟩ : BufTy).Contents (Elt F)) (W : Valuation τ sig (Elt F))
    (h7 : W (Proc.devRef .tc main_v7) = val_main_v7 (F := F) x0 x3)
    (h8 : W (Proc.devRef .tc main_v8) = val_main_v8 (F := F) x1)
    (hn : W (Proc.devRef .tc main_call2_v1) = val_main_call2_v1 (F := F) x1)
    (hc : W (Proc.devRef .tc main_call2_c_0) = val_main_call2_c_0 (F := F)) :
    after stretch5 W (Proc.devRef .tc main_v7) = val_main_v7 (F := F) x0 x3
    ∧ after stretch5 W (Proc.devRef .tc main_call2_v5) = val_main_call2_v5 (F := F) x1
    ∧ after stretch5 W (Proc.devRef .tc main_call2_c_1) = val_main_call2_c_1 (F := F)
    ∧ after stretch5 W (Proc.devRef .tc main_call2_v7) = val_main_call2_v7 (F := F) x1 := by
  refine ⟨?_, ?_, ?_, ?_⟩
  · after_results_simp; exact h7
  · after_results_simp; simp only [cast_eq]; rw [h8, hn, hc]; rfl
  · after_results_simp; rfl
  · after_results_simp; simp only [cast_eq]; rw [h8, hn, hc]; rfl

/-- From contents with those at their stages, after the sixth stretch: the range test, the gathered entries and the constant read next
    are at their stages. -/
theorem after_stretch6 (x0 : (⟨S256x2048, .f32⟩ : BufTy).Contents (Elt F)) (x1 : (⟨S256, .i32⟩ : BufTy).Contents (Elt F)) (x3 : (⟨S65536x2048, .f32⟩ : BufTy).Contents (Elt F)) (W : Valuation τ sig (Elt F))
    (h7 : W (Proc.devRef .tc main_v7) = val_main_v7 (F := F) x0 x3)
    (h5 : W (Proc.devRef .tc main_call2_v5) = val_main_call2_v5 (F := F) x1)
    (hc : W (Proc.devRef .tc main_call2_c_1) = val_main_call2_c_1 (F := F))
    (hg : W (Proc.devRef .tc main_call2_v7) = val_main_call2_v7 (F := F) x1) :
    after stretch6 W (Proc.devRef .tc main_call2_v12) = val_main_call2_v12 (F := F) x1
    ∧ after stretch6 W (Proc.devRef .tc main_call2_v13) = val_main_call2_v13 (F := F) x0 x1 x3
    ∧ after stretch6 W (Proc.devRef .tc main_call2_cst) = val_main_call2_cst (F := F) := by
  refine ⟨?_, ?_, ?_⟩
  · after_results_simp; simp only [cast_eq]; rw [h5, hc, hg]; rfl
  · after_results_simp; simp only [cast_eq]; rw [h7, h5]; rfl
  · after_results_simp; rfl

/-- From contents with those at their stages, after the last stretch the result buffer is at the last stage. -/
theorem after_stretch7 (x0 : (⟨S256x2048, .f32⟩ : BufTy).Contents (Elt F)) (x1 : (⟨S256, .i32⟩ : BufTy).Contents (Elt F)) (x3 : (⟨S65536x2048, .f32⟩ : BufTy).Contents (Elt F)) (W : Valuation τ sig (Elt F))
    (hm : W (Proc.devRef .tc main_call2_v12) = val_main_call2_v12 (F := F) x1)
    (hg : W (Proc.devRef .tc main_call2_v13) = val_main_call2_v13 (F := F) x0 x1 x3)
    (hc : W (Proc.devRef .tc main_call2_cst) = val_main_call2_cst (F := F)) :
    after stretch7 W (Proc.devRef .tc main_v13) = val_main_v13 (F := F) x0 x1 x3 := by
  after_results_simp; simp only [cast_eq]; rw [hm, hg, hc]; rfl

/-- From any contents, after the whole line the result buffer is at the last stage of the three arguments read there: the seven
    stretches in turn, each handing the next the stages it reads. -/
theorem after_ops_main_v13 (V : Valuation τ sig (Elt F)) :
    after ops V (Proc.devRef .tc main_v13)
      = val_main_v13 (F := F) (V (Proc.devRef .tc main_arg0)) (V (Proc.devRef .tc main_arg1)) (V (Proc.devRef .tc main_arg3)) := by
  have e : after (ops (F := F)) V = after stretch7 (after stretch6 (after stretch5 (after stretch4 (after stretch3 (after stretch2 (after stretch1 V)))))) := by
    rw [ops_eq_stretches]; simp only [StableHlo.after_append]
  rw [e]
  obtain ⟨a2, a3, a1⟩ := after_stretch1 V
  obtain ⟨b6, bm, bi, b1⟩ := after_stretch2 _ _ _ _ a2 a3 a1
  obtain ⟨c5, c8, c1⟩ := after_stretch3 _ _ _ _ b6 bm bi b1
  obtain ⟨d7, d8, dn, dc⟩ := after_stretch4 _ _ _ _ c5 c8 c1
  obtain ⟨e7, e5, ec, eg⟩ := after_stretch5 _ _ _ _ d7 d8 dn dc
  obtain ⟨f12, f13, fc⟩ := after_stretch6 _ _ _ _ e7 e5 ec eg
  exact after_stretch7 _ _ _ _ f12 f13 fc

/-- On every device, from any memory with zero counters: every weakly fair execution of the reference
    terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = val_main_v13 (F := F) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (after_ops_main_v13 _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunBy

end
-- ==== Proof.RefValue.lean ====
/-
  The reference's result is the mean of its per-row losses.

  Read stage by stage, the reference normalises the inputs, takes every row's inner product with every bank
  row and divides by the temperature word `13421773 / 2^28` — the same number as the product with its
  reciprocal `2^28 / 13421773` —, subtracts the row maximum, exponentiates, sums, takes the logarithm, and
  picks the target's entry; for a target word below 65536 the wrap of negative words and the out-of-range
  fill do nothing and the entry picked is the target column's. Negated and averaged, that is `meanLoss` of the
  rows' `direct` losses.
-/
import proofs.«420116_j37349035606124_2_alg».proof.Proof.RefRead
import proofs.«420116_j37349035606124_2_alg».proof.Proof.Rows
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Rows

/-! ### The constants -/

/-- The word `0xFF800000` denotes `-∞`. -/
theorem ofBits_negInf : Ideal.ofBits .f32 0xFF800000#32 = ⊥ := by simp [Ideal.ofBits, Ideal.ieee]

/-- The temperature word `0x3D4CCCCD` denotes `13421773 / 2^28`: exponent field 122, significand `2^23 + 5033165`. -/
theorem ofBits_temp : Ideal.ofBits .f32 0x3D4CCCCD#32 = ((13421773 / 268435456 : ℝ) : EReal) := by
  simp [Ideal.ofBits, Ideal.ieee, -EReal.coe_mul]; norm_num

/-! ### The two ends: the same operations as `normalize` and `meanLoss` -/

/-- The reference's first seven operations are `normalize`. -/
theorem v2_eq (x0 : FVec Ideal S256x2048 .f32) : ReadP.val_main_v2 (F := Ideal) x0 = Rows.normalize x0 := by
  unfold ReadP.val_main_v2 ReadP.val_main_v1 ReadP.val_main_v0 ReadP.val_main_call0_v2 ReadP.val_main_call0_v1
    ReadP.val_main_call0_v0 ReadP.val_main_call0_cst Rows.normalize
  rfl

/-- The reference's last four operations are `meanLoss` of the vector of negated picks. -/
theorem v13_eq (x0 : FVec Ideal S256x2048 .f32) (x1 : IVec S256 32) (x3 : FVec Ideal S65536x2048 .f32) :
    ReadP.val_main_v13 (F := Ideal) x0 x1 x3 = meanLoss (ReadP.val_main_v11 (F := Ideal) x0 x1 x3) := by
  unfold ReadP.val_main_v13 ReadP.val_main_v12 ReadP.val_main_cst_0 ReadP.val_main_cst_1 meanLoss
  generalize ReadP.val_main_v11 (F := Ideal) x0 x1 x3 = v
  rfl

/-- Division by the temperature word is the product with its reciprocal. -/
theorem div_temp (x : EReal) : Ideal.div x (Ideal.ofBits .f32 0x3D4CCCCD#32) = x * invTemp := by
  rw [ofBits_temp, Ideal.div_coe (by norm_num)]
  unfold invTemp
  norm_num

/-! ### The logits -/

/-- The scaled product at `(b, j)` is the logit of row `b` against bank row `j`: the transposed bank read at `(k, j)` is
    the bank at `(j, k)`, and the division is the product with the reciprocal. -/
theorem v6_apply (x0 : FVec Ideal S256x2048 .f32) (x3 : FVec Ideal S65536x2048 .f32) (b : Fin 256) (j : Fin 65536) :
    ReadP.val_main_v6 (F := Ideal) x0 x3 (ix2 b j) = logit (ReadP.val_main_v2 (F := Ideal) x0) x3 b j := by
  rw [ReadP.val_main_v6_apply, ReadP.val_main_v4_apply, ReadP.val_main_v5_apply, ReadP.val_main_cst_apply,
    Ideal.hostDivf_def, Ideal.ofBits_def, div_temp]
  generalize ReadP.val_main_v2 (F := Ideal) x0 = X
  unfold logit
  refine congrArg (· * invTemp) (Finset.sum_congr rfl fun k _ => ?_)
  rw [ReadP.val_main_v3_apply]
  have e1 : ReadP.lidx_main_v4 (ix2 b j) k = ix2 b k :=
    funext fun a => Fin.ext (by match a with | ⟨0, _⟩ => rfl | ⟨1, _⟩ => rfl)
  have e2 : ReadP.idx_main_v3 (ReadP.ridx_main_v4 (ix2 b j) k) = ix2 j k :=
    funext fun a => Fin.ext (by match a with | ⟨0, _⟩ => rfl | ⟨1, _⟩ => rfl)
  rw [e1, e2]

/-! ### The row maximum -/

/-- Row `b` with column `k` put back is `(b, k)`. -/
theorem lift_row (h : S256x65536.Reduces [1] S256) (b : Fin 256) (k : Fin (S256x65536.size 1)) :
    h.lift (ix1 b) k = ix2 b (⟨k.val, k.isLt⟩ : Fin 65536) := by
  funext c; apply Fin.ext
  fin_cases c <;> rfl

/-- From `-∞` the maximum over the columns, at row `b`, is the fold of `max` from `⊥` over that row. -/
theorem rowMax_apply (y : FVec Ideal S256x65536 .f32) (b : Fin 256) :
    Host.reduce FloatOps.maximumf y (constant (F := Ideal) S_ .f32 0xFF800000#32) reducesTo_S256x65536_S256_d1 h_S_ (ix1 b)
      = (Finset.univ : Finset (Fin 65536)).fold max ⊥ (fun j => y (ix2 b j)) := by
  have h : S256x65536.Reduces [1] S256 := by decide
  rw [Host.reduce_eq_fold_single FloatOps.maximumf y _ reducesTo_S256x65536_S256_d1 h h_S_]
  have hc : constant (F := Ideal) S_ .f32 0xFF800000#32 (Shape.Idx.first h_S_) = (⊥ : EReal) := ofBits_negInf
  rw [hc]
  have hf : (y ∘ h.lift (ix1 b)) = fun k : Fin 65536 => y (ix2 b k) := funext fun k => congrArg y (lift_row h b k)
  exact congrArg (fun f => Finset.fold max (⊥ : EReal) f (Finset.univ : Finset (Fin 65536))) hf

/-- The reference's row maximum at row `b`. -/
theorem call1_v0_apply (x0 : FVec Ideal S256x2048 .f32) (x3 : FVec Ideal S65536x2048 .f32) (b : Fin 256) :
    ReadP.val_main_call1_v0 (F := Ideal) x0 x3 (ix1 b)
      = (Finset.univ : Finset (Fin 65536)).fold max ⊥ (fun j => ReadP.val_main_v6 (F := Ideal) x0 x3 (ix2 b j)) := by
  unfold ReadP.val_main_call1_v0 ReadP.val_main_call1_cst
  exact rowMax_apply _ b

/-! ### The target word: the wrap of negative words and the range test do nothing below 65536 -/

/-- A word below 65536 is not below zero as a signed integer … -/
theorem slt_zero_of_lt (w : BitVec 32) (hw : w.toNat < 65536) : IntOp.cmpi .slt w 0#32 = 0#1 := by
  apply eq_zero_of_ne_one
  rw [StableHlo.Predicate.slt_iff_toNat (by omega) (by decide)]
  show ¬ w.toNat < 0
  omega

/-- … is at least zero … -/
theorem sge_zero_of_lt (w : BitVec 32) (hw : w.toNat < 65536) : IntOp.cmpi .sge w 0#32 = 1#1 :=
  (StableHlo.Predicate.sge_iff_toNat (by omega) (by decide)).2 (Nat.zero_le _)

/-- … and is at most 65535. -/
theorem sle_max_of_lt (w : BitVec 32) (hw : w.toNat < 65536) : IntOp.cmpi .sle w 65535#32 = 1#1 :=
  (StableHlo.Predicate.sle_iff_toNat (by omega) (by decide)).2 (by show w.toNat ≤ 65535; omega)

/-- The start index of row `b`: the select keeps the target word, since the word is not negative. -/
theorem call2_v5_apply (x1 : IVec S256 32) (hT : ∀ b : Fin 256, (x1 (ix1 b)).toNat < 65536) (b : Fin 256) (c d : Fin 1) :
    ReadP.val_main_call2_v5 (F := Ideal) x1 (ix3 b c d) = x1 (ix1 b) := by
  have e5 : ReadP.idx_main_call2_v5 (ix3 b c d) = ix2 b (0 : Fin 1) :=
    funext fun a => Fin.ext (by
      match a with
      | ⟨0, _⟩ => show ((b.val * 1 + c.val) * 1 + d.val) / 1 = b.val; have := c.isLt; have := d.isLt; omega
      | ⟨1, _⟩ => rfl)
  have e8 : ReadP.idx_main_v8 (ix2 b (0 : Fin 1)) = ix1 b :=
    funext fun a => Fin.ext (by match a with | ⟨0, _⟩ => rfl)
  rw [ReadP.val_main_call2_v5_apply, e5, ReadP.val_main_call2_v4_apply, ReadP.val_main_call2_v1_apply,
    ReadP.val_main_v8_apply, e8, ReadP.val_main_call2_v0_apply, ReadP.val_main_call2_c_apply,
    slt_zero_of_lt _ (hT b), select_zero]

/-- Every start index passes both range tests. -/
theorem call2_v11_one (x1 : IVec S256 32) (hT : ∀ b : Fin 256, (x1 (ix1 b)).toNat < 65536) (i : S256x1x1.Idx) :
    ReadP.val_main_call2_v11 (F := Ideal) x1 i = 1#1 := by
  obtain ⟨b, c, d, rfl⟩ : ∃ (b : Fin 256) (c d : Fin 1), i = ix3 b c d := ⟨i 0, i 1, i 2, eq_ix3 i⟩
  rw [ReadP.val_main_call2_v11_apply, ReadP.val_main_call2_v7_apply, ReadP.val_main_call2_v10_apply,
    call2_v5_apply x1 hT, ReadP.val_main_call2_v6_apply, ReadP.val_main_call2_c_2_apply,
    ReadP.val_main_call2_v9_apply, ReadP.val_main_call2_v8_apply, ReadP.val_main_call2_c_1_apply,
    sge_zero_of_lt _ (hT b), sle_max_of_lt _ (hT b)]
  rfl

/-- A fold of `and` from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- So the reduced range test is 1 at every row. -/
theorem call2_v12_apply (x1 : IVec S256 32) (hT : ∀ b : Fin 256, (x1 (ix1 b)).toNat < 65536) (j : S256x1.Idx) :
    ReadP.val_main_call2_v12 (F := Ideal) x1 j = 1#1 := by
  unfold ReadP.val_main_call2_v12
  refine (Host.reduce_eq_foldl _ _ _ _ _ _).trans ?_
  rw [ReadP.val_main_call2_c_3_apply]
  exact foldl_andi_ones _ _ fun i _ => call2_v11_one x1 hT i

/-! ### The gather: row `b` of the result reads row `b` of the operand at the column its start index names -/

/-- On the batching axis the operand index of result `(b, 0)` is `b`. -/
theorem gather_axis0 (idx : IVec S256x1x1 32) (b : Fin 256) :
    (gather_S256x65536_S256x1x1_S256x1_n_1_0_0_1_2_11.operandIdx (ix2 b (0 : Fin 1)) idx 0).val = b.val := by
  show gather_S256x65536_S256x1x1_S256x1_n_1_0_0_1_2_11.start _ idx 0
    + gather_S256x65536_S256x1x1_S256x1_n_1_0_0_1_2_11.batchCoord _ 0
    + gather_S256x65536_S256x1x1_S256x1_n_1_0_0_1_2_11.offCoord _ 0 = b.val
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  rfl

/-- On the collapsed axis it is the start index at `(b, 0, 0)`, read signed and clamped into the columns. -/
theorem gather_axis1 (idx : IVec S256x1x1 32) (b : Fin 256) :
    (gather_S256x65536_S256x1x1_S256x1_n_1_0_0_1_2_11.operandIdx (ix2 b (0 : Fin 1)) idx 1).val
      = min (idx (ix3 b (0 : Fin 1) (0 : Fin 1))).toInt.toNat 65535 := by
  show gather_S256x65536_S256x1x1_S256x1_n_1_0_0_1_2_11.start _ idx 1
    + gather_S256x65536_S256x1x1_S256x1_n_1_0_0_1_2_11.batchCoord _ 1
    + gather_S256x65536_S256x1x1_S256x1_n_1_0_0_1_2_11.offCoord _ 1 = _
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (1 : Fin S256x65536.rank) ∈ gather_S256x65536_S256x1x1_S256x1_n_1_0_0_1_2_11.startIndexMap
    from List.mem_singleton.mpr rfl)]
  have hsi : gather_S256x65536_S256x1x1_S256x1_n_1_0_0_1_2_11.siIdx (ix2 b (0 : Fin 1))
      ⟨List.idxOf (1 : Fin S256x65536.rank) gather_S256x65536_S256x1x1_S256x1_n_1_0_0_1_2_11.startIndexMap,
        List.idxOf_lt_length_iff.2 (List.mem_singleton.mpr rfl)⟩ = ix3 b (0 : Fin 1) (0 : Fin 1) := by
    funext a; refine Fin.ext ?_
    match a with
    | ⟨0, _⟩ => rfl
    | ⟨1, _⟩ => rfl
    | ⟨2, _⟩ => rfl
  rw [hsi]
  rfl

/-- The gather at `(b, 0)` reads the operand at row `b` and that column. -/
theorem gather_row {α : Type} (x : S256x65536.Idx → α) (idx : IVec S256x1x1 32) (b : Fin 256) :
    Host.gather gather_S256x65536_S256x1x1_S256x1_n_1_0_0_1_2_11 x idx (ix2 b (0 : Fin 1))
      = x (ix2 b (⟨min (idx (ix3 b (0 : Fin 1) (0 : Fin 1))).toInt.toNat 65535, by omega⟩ : Fin 65536)) := by
  unfold Host.gather
  congr 1
  funext a
  refine Fin.ext ?_
  match a with
  | ⟨0, _⟩ => exact gather_axis0 idx b
  | ⟨1, _⟩ => exact gather_axis1 idx b

/-- The same with the column named. -/
theorem gather_row' {α : Type} (x : S256x65536.Idx → α) (idx : IVec S256x1x1 32) (b : Fin 256) (t : Fin 65536)
    (ht : min (idx (ix3 b (0 : Fin 1) (0 : Fin 1))).toInt.toNat 65535 = t.val) :
    Host.gather gather_S256x65536_S256x1x1_S256x1_n_1_0_0_1_2_11 x idx (ix2 b (0 : Fin 1)) = x (ix2 b t) :=
  (gather_row x idx b).trans (congrArg x (congrArg (ix2 b) (Fin.ext ht)))

/-- A word below 65536, read signed and clamped into the columns, is itself. -/
theorem clamp_of_lt (w : BitVec 32) (hw : w.toNat < 65536) : min w.toInt.toNat 65535 = w.toNat % 65536 := by
  rw [StableHlo.Predicate.toInt_eq_toNat_of_lt (by omega), Int.toNat_natCast, Nat.mod_eq_of_lt hw]
  omega

/-! ### One row of the reference -/

section Row
variable (x0 : FVec Ideal S256x2048 .f32) (x3 : FVec Ideal S65536x2048 .f32) (b : Fin 256) (t : Fin 65536)

/-- The broadcast row maximum at `(b, t)`: `max ⊥` of the fold over row `b`'s logits. -/
theorem call1_v4_row :
    ReadP.val_main_call1_v4 (F := Ideal) x0 x3 (ix2 b t)
      = max ⊥ ((Finset.univ : Finset (Fin 65536)).fold max ⊥
          (fun j => logit (ReadP.val_main_v2 (F := Ideal) x0) x3 b j)) := by
  have e4 : ReadP.idx_main_call1_v4 (ix2 b t) = ix2 b (0 : Fin 1) :=
    funext fun a => Fin.ext (by match a with | ⟨0, _⟩ => rfl | ⟨1, _⟩ => rfl)
  have e3 : ReadP.idx_main_call1_v3 (ix2 b (0 : Fin 1)) = ix1 b :=
    funext fun a => Fin.ext (by match a with | ⟨0, _⟩ => rfl)
  rw [ReadP.val_main_call1_v4_apply, e4, ReadP.val_main_call1_v3_apply, e3, ReadP.val_main_call1_v2_apply,
    ReadP.val_main_call1_v1_apply, ReadP.val_main_call1_cst_0_apply, call1_v0_apply, Ideal.maximumf_def,
    Ideal.ofBits_def, ofBits_negInf]
  simp only [v6_apply]

/-- The shifted logit at `(b, t)`. -/
theorem call1_v5_row :
    ReadP.val_main_call1_v5 (F := Ideal) x0 x3 (ix2 b t)
      = logit (ReadP.val_main_v2 (F := Ideal) x0) x3 b t
        - max ⊥ ((Finset.univ : Finset (Fin 65536)).fold max ⊥
            (fun j => logit (ReadP.val_main_v2 (F := Ideal) x0) x3 b j)) := by
  rw [ReadP.val_main_call1_v5_apply, v6_apply, call1_v4_row, Ideal.subf_def]

/-- The broadcast logarithm of the row's sum of exponentials at `(b, t)`: the sum starts from the zero word. -/
theorem call1_v10_row :
    ReadP.val_main_call1_v10 (F := Ideal) x0 x3 (ix2 b t)
      = Ideal.log (∑ k : Fin 65536, Ideal.exp (logit (ReadP.val_main_v2 (F := Ideal) x0) x3 b k
          - max ⊥ ((Finset.univ : Finset (Fin 65536)).fold max ⊥
              (fun j => logit (ReadP.val_main_v2 (F := Ideal) x0) x3 b j)))) := by
  have e10 : ReadP.idx_main_call1_v10 (ix2 b t) = ix2 b (0 : Fin 1) :=
    funext fun a => Fin.ext (by match a with | ⟨0, _⟩ => rfl | ⟨1, _⟩ => rfl)
  have e8 : ReadP.idx_main_call1_v8 (ix2 b (0 : Fin 1)) = ix1 b :=
    funext fun a => Fin.ext (by match a with | ⟨0, _⟩ => rfl)
  have e7 : ∀ k : Fin 65536, ReadP.idx_main_call1_v7 (ix1 b) k = ix2 b k := fun k =>
    funext fun a => Fin.ext (by match a with | ⟨0, _⟩ => rfl | ⟨1, _⟩ => rfl)
  rw [ReadP.val_main_call1_v10_apply, e10, ReadP.val_main_call1_v9_apply, ReadP.val_main_call1_v8_apply, e8,
    ReadP.val_main_call1_v7_apply, ReadP.val_main_call1_cst_1_apply, Ideal.hostUnary_log_def, Ideal.ofBits_def,
    Ideal.ofBits_zero_f32, zero_add]
  simp only [e7, ReadP.val_main_call1_v6_apply, call1_v5_row, Ideal.hostUnary_exp_def]

/-- The log-softmax at `(b, t)` is minus the `direct` loss of row `b`'s logits at column `t`. -/
theorem v7_row :
    ReadP.val_main_v7 (F := Ideal) x0 x3 (ix2 b t)
      = -Cert.Stream.direct (fun j => logit (ReadP.val_main_v2 (F := Ideal) x0) x3 b j) t := by
  rw [ReadP.val_main_v7_apply, call1_v5_row, call1_v10_row, Ideal.subf_def]
  unfold Cert.Stream.direct
  rw [neg_neg]

end Row

/-- Row `b` of the negated picks is the reference's loss of row `b`: the range test passes, the gather reads the
    target's column, and the negation undoes the sign. -/
theorem row_eq (x0 : FVec Ideal S256x2048 .f32) (x1 : IVec S256 32) (x3 : FVec Ideal S65536x2048 .f32)
    (hT : ∀ b : Fin 256, (x1 (ix1 b)).toNat < 65536) (b : Fin 256) :
    ReadP.val_main_v11 (F := Ideal) x0 x1 x3 (ix1 b) = refRow (ReadP.val_main_v2 (F := Ideal) x0) x3 x1 b := by
  have e10 : ReadP.idx_main_v10 (ix1 b) = ix2 b (0 : Fin 1) :=
    funext fun a => Fin.ext (by
      match a with
      | ⟨0, _⟩ => show b.val / 1 = b.val; omega
      | ⟨1, _⟩ => rfl)
  rw [ReadP.val_main_v11_apply, ReadP.val_main_v10_apply, e10, ReadP.val_main_v9_apply, call2_v12_apply x1 hT,
    select_one]
  unfold ReadP.val_main_call2_v13
  rw [gather_row' _ _ b ⟨(x1 (ix1 b)).toNat % 65536, Nat.mod_lt _ (by norm_num)⟩
      (by rw [call2_v5_apply x1 hT]; exact clamp_of_lt _ (hT b)),
    v7_row, Ideal.hostNegf_def, Ideal.negf_def]
  unfold refRow
  exact neg_neg _

theorem val_eq (x0 : FVec Ideal S256x2048 .f32) (x1 : IVec S256 32) (x3 : FVec Ideal S65536x2048 .f32)
    (hT : ∀ b : Fin 256, (x1 (ix1 b)).toNat < 65536) :
    Cert.ReferenceIdeal.ReadP.val_main_v13 (F := Ideal) x0 x1 x3 = meanLoss (refRows (normalize x0) x3 x1) := by
  rw [v13_eq, ← v2_eq]
  refine congrArg meanLoss (funext fun i => ?_)
  obtain ⟨b, rfl⟩ : ∃ b : Fin 256, i = ix1 b := ⟨i 0, eq_ix1 i⟩
  exact row_eq x0 x1 x3 hT b

end Cert.ReferenceIdeal.RefValue

end
-- ==== Proof.PreFacts.lean ====
/-
  What the precondition says, read off its printed form.

  The precondition is a conjunction of four tests, each reduced with `and` over its array: every entry of
  `inputs` and of the bank is finite (`|x| < +∞`); every target word `t` satisfies `0 ≤ t` and `t < 65536` as a
  signed number; every row of `inputs` has a positive sum of squares. From these: an entry of the normalised
  inputs is a finite entry divided by the square root of a positive real, hence a real number; an entry of
  the bank is a real number; a target word, read unsigned, is below 65536.
-/
import proofs.«420116_j37349035606124_2_alg».proof.Pre_finite_inputs
import proofs.«420116_j37349035606124_2_alg».proof.Proof.Rows
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Rows

variable [Cert.Pre_finite_inputs.Facts]

/-- The scalar shape has one index. -/
instance : Subsingleton Cert.Pre_finite_inputs.S_.Idx := ⟨fun a b => funext fun d => d.elim0⟩

/-- The pattern `0x7F800000` is `+∞`. -/
theorem ofBits_inf : Ideal.ofBits .f32 0x7F800000#32 = ⊤ := by simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- A word in `[0, 65536)` read signed is below 65536 read unsigned. -/
theorem toNat_lt_of_signed (w : BitVec 32) (h0 : IntOp.cmpi .sge w 0#32 = 1#1)
    (h1 : IntOp.cmpi .slt w 65536#32 = 1#1) : w.toNat < 65536 := by
  have g0 := IntOp.cmpi_sge.1 h0
  have g1 := IntOp.cmpi_slt.1 h1
  have e0 : (0#32 : BitVec 32).toInt = 0 := by decide
  have e1 : (65536#32 : BitVec 32).toInt = 65536 := by decide
  rw [e0] at g0; rw [e1] at g1
  have h32 := w.isLt
  rw [BitVec.toInt_eq_toNat_cond] at g0 g1
  split at g0 <;> omega

/-- A finite sum of real numbers, taken in the extended reals, is a real number. -/
theorem sum_real {ι : Type} (S : Finset ι) (f : ι → EReal) (hf : ∀ i, ∃ r : ℝ, f i = (r : EReal)) :
    ∃ r : ℝ, ∑ i ∈ S, f i = (r : EReal) := by
  induction S using Finset.cons_induction with
  | empty => exact ⟨0, by simp⟩
  | cons a S ha ih =>
    obtain ⟨r, hr⟩ := ih
    obtain ⟨x, hx⟩ := hf a
    exact ⟨x + r, by rw [Finset.sum_cons, hr, hx, EReal.coe_add]⟩

/-- A real number divided by the square root of a positive real number is a real number. -/
theorem div_sqrt_real (x s : ℝ) (hs : 0 < s) :
    ∃ r : ℝ, Ideal.div (x : EReal) (Ideal.sqrt (s : EReal)) = (r : EReal) := by
  have hq : Real.sqrt s ≠ 0 := (Real.sqrt_pos.2 hs).ne'
  refine ⟨x * (1 / Real.sqrt s), ?_⟩
  rw [Ideal.sqrt_coe, if_neg (not_lt.2 hs.le), Ideal.div_coe hq, ← EReal.coe_mul]

/-- An entry of the normalised inputs is the entry divided by the square root of some row's sum of squares. -/
theorem normalize_apply (a : FVec Ideal SIn .f32) (i : SIn.Idx) :
    ∃ j : SRow.Idx, normalize a i = Ideal.div (a i) (Ideal.sqrt
      (Host.reduceAdd (mulf a a) (constant (F := Ideal) S0 .f32 0x00000000#32) rowsTo Rows.one_pos j)) :=
  ⟨_, rfl⟩

theorem of_pre (a0 : FVec Ideal Cert.Pre_finite_inputs.S256x2048 .f32) (a1 a2 : IVec Cert.Pre_finite_inputs.S256 32)
    (a3 : FVec Ideal Cert.Pre_finite_inputs.S65536x2048 .f32)
    (h : Cert.Pre_finite_inputs.fn (F := Ideal) a0 a1 a2 a3 = fun _ => 1#1) :
    (∀ (b : Fin 256) (k : Fin 2048), ∃ r : ℝ, normalize a0 (ix2 b k) = (r : EReal))
    ∧ (∀ (j : Fin 65536) (k : Fin 2048), ∃ r : ℝ, a3 (ix2 j k) = (r : EReal))
    ∧ (∀ b : Fin 256, (a1 (ix1 b)).toNat < 65536) := by
  have e := congrFun h ValueIdx.ix0
  dsimp only [Cert.Pre_finite_inputs.fn, Cert.Pre_finite_inputs.fn_part1] at e
  obtain ⟨e123, e4⟩ := IntOp.andi_eq_one.1 e
  obtain ⟨e12, e3⟩ := IntOp.andi_eq_one.1 e123
  obtain ⟨e1, e2⟩ := IntOp.andi_eq_one.1 e12
  have f1 := Host.reduce_andi_all _ _ _ _ _ e1
  have f2 := Host.reduce_andi_all _ _ _ _ _ e2
  have f3 := Host.reduce_andi_all _ _ _ _ _ e3
  have f4 := Host.reduce_andi_all _ _ _ _ _ e4
  -- every entry of the inputs and of the bank is a real number
  have r0 : ∀ i, ∃ r : ℝ, a0 i = (r : EReal) := fun i => real_of_abs_lt (a0 i) (f1 i)
  have r3 : ∀ i, ∃ r : ℝ, a3 i = (r : EReal) := fun i => real_of_abs_lt (a3 i) (f2 i)
  refine ⟨fun b k => ?_, fun j k => r3 _, fun b => ?_⟩
  · -- every square is a real number, so every row's sum of squares is one, and it is positive
    have hsq : ∀ i, ∃ r : ℝ, mulf a0 a0 i = (r : EReal) := fun i => by
      obtain ⟨y, hy⟩ := r0 i
      exact ⟨y * y, by rw [mulf_apply, hy, EReal.coe_mul]⟩
    have hrow : ∀ j : SRow.Idx, ∃ s : ℝ, 0 < s ∧
        Host.reduceAdd (mulf a0 a0) (constant (F := Ideal) S0 .f32 0x00000000#32) rowsTo Rows.one_pos j = (s : EReal) := fun j => by
      obtain ⟨s, hs⟩ := sum_real (Finset.univ.filter fun i => rowsTo.drop i = j) (mulf a0 a0) hsq
      have hval : Host.reduceAdd (mulf a0 a0) (constant (F := Ideal) S0 .f32 0x00000000#32) rowsTo Rows.one_pos j = (s : EReal) := by
        show Ideal.hostReduceAdd rowsTo (mulf a0 a0) (Ideal.ofBits .f32 0x00000000#32) j = _
        unfold Ideal.hostReduceAdd
        rw [Ideal.ofBits_zero_f32, zero_add, hs]
      refine ⟨s, ?_, hval⟩
      have hp : Ideal.cmp .ogt (Host.reduceAdd (mulf a0 a0) (constant (F := Ideal) S0 .f32 0x00000000#32) rowsTo Rows.one_pos j)
          (Ideal.ofBits .f32 0x00000000#32) = 1#1 := f4 j
      rw [hval, Ideal.ofBits_zero_f32] at hp
      exact EReal.coe_pos.1 (of_decide_eq_true ((StableHlo.Predicate.ofBool_eq_one_iff _).1 hp))
    obtain ⟨x, hx⟩ := r0 (ix2 b k)
    obtain ⟨j, hj⟩ := normalize_apply a0 (ix2 b k)
    obtain ⟨s, hs, hsum⟩ := hrow j
    rw [hj, hx, hsum]
    exact div_sqrt_real x s hs
  · obtain ⟨g0, g1⟩ := IntOp.andi_eq_one.1 (f3 (ix1 b))
    exact toNat_lt_of_signed _ g0 g1

end Cert.PreFacts

end
-- ==== Proof.StreamLaws.lean ====
/-
  Why the one-pass walk computes the log-sum-exp.

  Over REAL logits every quantity of the walk is a real number, and three facts carry the argument.
  (1) The running maximum after blocks `0..k` is the largest logit met so far, and it is attained.
  (2) The running sum after blocks `0..k` is `∑ exp (r - M)` over the logits met so far, `M` that maximum: when a
      block lifts the maximum from `M` to `M'`, `exp (r - M) * exp (M - M') = exp (r - M')` rescales every old term;
      from the empty state the factor is `exp (-∞) = 0` against an empty sum.
  (3) The target sum collects the logit of the one column that is the target.
  Merging two walks rescales both sums to the joint maximum the same way, so the merged pair is
  `(M, ∑ exp (r - M))` over ALL columns, `M` their maximum, and
  `-(r t - (M + log Z)) = -((r t - M) - log Z)` over the reals, `Z = ∑ exp (r - M) > 0`.
-/
import proofs.«420116_j37349035606124_2_alg».proof.Proof.Stream
import Mathlib.Analysis.SpecialFunctions.Log.Basic
import Mathlib.Algebra.BigOperators.Fin

noncomputable section

namespace Cert.Stream

open Idealize.ShloMosaic

namespace Laws

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals. -/
theorem coe_max (x y : ℝ) : ((max x y : ℝ) : EReal) = max (x : EReal) (y : EReal) :=
  EReal.coe_strictMono.monotone.map_max

/-- A maximum folded from `-∞` over coerced reals is the coercion of any bound that is attained. -/
theorem fold_max_coe {ι : Type*} (s : Finset ι) (f : ι → ℝ) (M : ℝ)
    (hle : ∀ i ∈ s, f i ≤ M) (hatt : ∃ i ∈ s, f i = M) :
    s.fold max ⊥ (fun i => (f i : EReal)) = (M : EReal) := by
  apply le_antisymm
  · rw [Finset.fold_max_le]
    exact ⟨bot_le, fun i hi => EReal.coe_le_coe_iff.mpr (hle i hi)⟩
  · rw [Finset.le_fold_max]
    obtain ⟨i, hi, h⟩ := hatt
    exact Or.inr ⟨i, hi, by rw [h]⟩

/-- The maximum of a nonempty block of real logits is one of them, and bounds them all. -/
theorem blockMax_coe {n : ℕ} (hn : 0 < n) (f : Fin n → ℝ) :
    ∃ b : ℝ, (∀ j, f j ≤ b) ∧ (∃ j, f j = b) ∧ blockMax (fun j => (f j : EReal)) = (b : EReal) := by
  haveI : Nonempty (Fin n) := ⟨⟨0, hn⟩⟩
  obtain ⟨j0, -, hj0⟩ := Finset.exists_max_image Finset.univ f Finset.univ_nonempty
  refine ⟨f j0, fun j => hj0 j (Finset.mem_univ j), ⟨j0, rfl⟩, ?_⟩
  exact fold_max_coe _ f (f j0) (fun j hj => hj0 j hj) ⟨j0, Finset.mem_univ j0, rfl⟩

/-- The first block, absorbed into the empty state: the factor `exp (-∞ - b) = 0` meets an empty sum. -/
theorem step_st0 {n : ℕ} (f : Fin n → ℝ) (hit : Fin n → Prop) [DecidablePred hit] (b : ℝ)
    (hb : blockMax (fun j => (f j : EReal)) = (b : EReal)) :
    step (fun j => (f j : EReal)) hit st0
      = ((b : EReal), ((∑ j, Real.exp (f j - b) : ℝ) : EReal),
          ∑ j, if hit j then (f j : EReal) else 0) := by
  unfold step st0
  dsimp only
  rw [hb, max_eq_right bot_le]
  refine Prod.ext rfl (Prod.ext ?_ ?_)
  · dsimp only
    rw [zero_mul, zero_add, coe_finset_sum]
    refine Finset.sum_congr rfl fun j _ => ?_
    rw [← EReal.coe_sub, Ideal.exp_coe]
  · dsimp only
    rw [zero_add]

/-- A block absorbed into a real state: every quantity stays real. -/
theorem step_coe {n : ℕ} (f : Fin n → ℝ) (hit : Fin n → Prop) [DecidablePred hit] (b M L : ℝ) (T : EReal)
    (hb : blockMax (fun j => (f j : EReal)) = (b : EReal)) :
    step (fun j => (f j : EReal)) hit ((M : EReal), (L : EReal), T)
      = (((max M b : ℝ) : EReal),
         ((L * Real.exp (M - max M b) + ∑ j, Real.exp (f j - max M b) : ℝ) : EReal),
         T + ∑ j, if hit j then (f j : EReal) else 0) := by
  unfold step
  dsimp only
  rw [hb, ← coe_max]
  refine Prod.ext rfl (Prod.ext ?_ rfl)
  dsimp only
  rw [EReal.coe_add, EReal.coe_mul, coe_finset_sum, ← EReal.coe_sub, Ideal.exp_coe]
  congr 1

/-- Rescaling a double sum of shifted exponentials from the shift `M` to the shift `M'`:
    `exp (a - M) * exp (M - M') = exp (a - M')`. -/
theorem rescale_sum {ι κ : Type*} (a : Finset ι) (b : Finset κ) (f : ι → κ → ℝ) (M M' : ℝ) :
    (∑ k ∈ a, ∑ j ∈ b, Real.exp (f k j - M)) * Real.exp (M - M')
      = ∑ k ∈ a, ∑ j ∈ b, Real.exp (f k j - M') := by
  rw [Finset.sum_mul]
  refine Finset.sum_congr rfl fun k _ => ?_
  rw [Finset.sum_mul]
  refine Finset.sum_congr rfl fun j _ => ?_
  rw [← Real.exp_add]
  congr 1
  ring

/-- The double sums of the two walks, taken together, run over every column exactly once. -/
theorem sum_cols {n N K : ℕ} {A : Type*} [AddCommMonoid A] (col : Fin 2 → ℕ → Fin n → Fin N)
    (hcol : Function.Bijective (fun x : Fin 2 × Fin (K + 1) × Fin n => col x.1 x.2.1.val x.2.2))
    (G : Fin N → A) :
    (∑ k ∈ Finset.range (K + 1), ∑ j, G (col 0 k j)) + (∑ k ∈ Finset.range (K + 1), ∑ j, G (col 1 k j))
      = ∑ i, G i := by
  rw [← Fintype.sum_equiv (Equiv.ofBijective _ hcol) (fun x => G (col x.1 x.2.1.val x.2.2)) G
    (fun x => rfl)]
  rw [Fintype.sum_prod_type, Fin.sum_univ_two]
  congr 1
  · rw [Fintype.sum_prod_type]
    exact (Fin.sum_univ_eq_sum_range (fun k => ∑ j, G (col 0 k j)) (K + 1)).symm
  · rw [Fintype.sum_prod_type]
    exact (Fin.sum_univ_eq_sum_range (fun k => ∑ j, G (col 1 k j)) (K + 1)).symm

end Laws

open Laws

/-- A walk over real logits stays real: after blocks `0..K` its maximum is a logit met so far that bounds them
    all, its sum is `∑ exp (r - M)` over them, and its target sum is the sum of the hit logits. -/
theorem walk_real {n : ℕ} (hn : 0 < n) (r : ℕ → Fin n → ℝ) (hit : ℕ → Fin n → Prop)
    [∀ k, DecidablePred (hit k)] (K : ℕ) :
    ∃ M : ℝ, (∀ k ≤ K, ∀ j, r k j ≤ M) ∧ (∃ k ≤ K, ∃ j, r k j = M) ∧
      walk (fun k j => (r k j : EReal)) hit K
        = ((M : EReal),
           ((∑ k ∈ Finset.range (K + 1), ∑ j, Real.exp (r k j - M) : ℝ) : EReal),
           ∑ k ∈ Finset.range (K + 1), ∑ j, if hit k j then (r k j : EReal) else 0) := by
  induction K with
  | zero =>
    obtain ⟨b, hle, ⟨j0, hj0⟩, hb⟩ := blockMax_coe hn (r 0)
    refine ⟨b, ?_, ⟨0, le_rfl, j0, hj0⟩, ?_⟩
    · intro k hk j
      obtain rfl : k = 0 := Nat.le_zero.mp hk
      exact hle j
    · show step (fun j => (r 0 j : EReal)) (hit 0) st0 = _
      rw [step_st0 (r 0) (hit 0) b hb, Finset.sum_range_one, Finset.sum_range_one]
  | succ K ih =>
    obtain ⟨M, hle, ⟨k0, hk0, j0, hj0⟩, hw⟩ := ih
    obtain ⟨b, hble, ⟨j1, hj1⟩, hb⟩ := blockMax_coe hn (r (K + 1))
    refine ⟨max M b, ?_, ?_, ?_⟩
    · intro k hk j
      rcases Nat.of_le_succ hk with h | h
      · exact (hle k h j).trans (le_max_left _ _)
      · subst h
        exact (hble j).trans (le_max_right _ _)
    · rcases le_total b M with h | h
      · exact ⟨k0, Nat.le_succ_of_le hk0, j0, by rw [hj0, max_eq_left h]⟩
      · exact ⟨K + 1, le_rfl, j1, by rw [hj1, max_eq_right h]⟩
    · show step (fun j => (r (K + 1) j : EReal)) (hit (K + 1)) (walk (fun k j => (r k j : EReal)) hit K) = _
      rw [hw, step_coe (r (K + 1)) (hit (K + 1)) b M _ _ hb]
      refine Prod.ext rfl (Prod.ext ?_ ?_)
      · dsimp only
        congr 1
        rw [Finset.sum_range_succ _ (K + 1), rescale_sum]
      · dsimp only
        rw [Finset.sum_range_succ _ (K + 1)]

/-- Two walks that between them meet every one of `N` columns exactly once (`col` numbers the columns: walk `c`,
    block `k ≤ K`, position `j`), with `hit` marking the target column `t`, merge to the reference's loss of the
    whole row. -/
theorem merged_eq_direct {n N : ℕ} (hn : 0 < n) (K : ℕ) (s : Fin N → ℝ) (t : Fin N)
    (col : Fin 2 → ℕ → Fin n → Fin N)
    (hcol : Function.Bijective (fun x : Fin 2 × Fin (K + 1) × Fin n => col x.1 x.2.1.val x.2.2))
    (hit : Fin 2 → ℕ → Fin n → Prop) [∀ c k, DecidablePred (hit c k)]
    (hhit : ∀ c k j, k ≤ K → (hit c k j ↔ col c k j = t)) :
    merged (walk (fun k j => (s (col 0 k j) : EReal)) (hit 0) K)
           (walk (fun k j => (s (col 1 k j) : EReal)) (hit 1) K)
      = direct (fun j => (s j : EReal)) t := by
  obtain ⟨M0, hle0, ⟨k0, hk0, j0, hj0⟩, hw0⟩ := walk_real hn (fun k j => s (col 0 k j)) (hit 0) K
  obtain ⟨M1, hle1, ⟨k1, hk1, j1, hj1⟩, hw1⟩ := walk_real hn (fun k j => s (col 1 k j)) (hit 1) K
  -- the joint maximum bounds every column's logit and is one of them
  have hMle : ∀ i, s i ≤ max M0 M1 := by
    intro i
    obtain ⟨⟨c, k, j⟩, hx⟩ := hcol.2 i
    dsimp only at hx
    rw [← hx]
    fin_cases c
    · exact (hle0 k.val (Nat.lt_succ_iff.mp k.isLt) j).trans (le_max_left _ _)
    · exact (hle1 k.val (Nat.lt_succ_iff.mp k.isLt) j).trans (le_max_right _ _)
  have hMatt : ∃ i, s i = max M0 M1 := by
    rcases le_total M1 M0 with h | h
    · exact ⟨col 0 k0 j0, by rw [max_eq_left h]; exact hj0⟩
    · exact ⟨col 1 k1 j1, by rw [max_eq_right h]; exact hj1⟩
  have hfold : (Finset.univ : Finset (Fin N)).fold max ⊥ (fun j => (s j : EReal))
      = ((max M0 M1 : ℝ) : EReal) := by
    obtain ⟨i, hi⟩ := hMatt
    exact fold_max_coe _ s _ (fun i _ => hMle i) ⟨i, Finset.mem_univ i, hi⟩
  -- the two target sums together pick out the target's logit
  have hTc : ∀ c : Fin 2,
      (∑ k ∈ Finset.range (K + 1), ∑ j, if hit c k j then (s (col c k j) : EReal) else 0)
        = ∑ k ∈ Finset.range (K + 1), ∑ j,
            (fun i : Fin N => if i = t then (s i : EReal) else 0) (col c k j) := by
    intro c
    refine Finset.sum_congr rfl fun k hk => Finset.sum_congr rfl fun j _ => ?_
    have h := hhit c k j (Nat.lt_succ_iff.mp (Finset.mem_range.mp hk))
    by_cases hh : hit c k j
    · rw [if_pos hh]
      exact (if_pos (h.mp hh)).symm
    · rw [if_neg hh]
      exact (if_neg (mt h.mpr hh)).symm
  have hT : (∑ k ∈ Finset.range (K + 1), ∑ j, if hit 0 k j then (s (col 0 k j) : EReal) else 0)
      + (∑ k ∈ Finset.range (K + 1), ∑ j, if hit 1 k j then (s (col 1 k j) : EReal) else 0)
      = (s t : EReal) := by
    rw [hTc 0, hTc 1, sum_cols col hcol (fun i : Fin N => if i = t then (s i : EReal) else 0),
      Finset.sum_ite_eq' Finset.univ t (fun i => (s i : EReal)), if_pos (Finset.mem_univ t)]
  -- the sum of exponentials over all columns is positive
  have hZpos : 0 < ∑ i, Real.exp (s i - max M0 M1) :=
    Finset.sum_pos (fun i _ => Real.exp_pos _) ⟨t, Finset.mem_univ t⟩
  have hZ' : ∑ j, Ideal.exp ((s j : EReal) - ((max M0 M1 : ℝ) : EReal))
      = ((∑ j, Real.exp (s j - max M0 M1) : ℝ) : EReal) := by
    rw [coe_finset_sum]
    rfl
  rw [hw0, hw1]
  unfold merged direct
  dsimp only
  rw [hfold, max_eq_right (bot_le : (⊥ : EReal) ≤ _), ← coe_max, hT, hZ']
  rw [← EReal.coe_sub M0, ← EReal.coe_sub M1, Ideal.exp_coe, Ideal.exp_coe, ← EReal.coe_mul,
    ← EReal.coe_mul, ← EReal.coe_add, rescale_sum, rescale_sum,
    sum_cols col hcol (fun i => Real.exp (s i - max M0 M1))]
  rw [Ideal.log_coe, if_neg (not_le.mpr hZpos)]
  -- what is left is arithmetic over the reals
  have hfin : -(s t - (max M0 M1 + Real.log (∑ i, Real.exp (s i - max M0 M1))))
      = -((s t - max M0 M1) - Real.log (∑ i, Real.exp (s i - max M0 M1))) := by
    ring
  exact_mod_cast hfin

end Cert.Stream

end
-- ==== Proof.RowsEq.lean ====
/-
  Row by row the two programs agree.

  With every entry of the normalised inputs and of the bank a real number, every logit is a real number; the
  kernel's two cores between them meet each of the 65536 columns exactly once (`(c, k, jj) ↦ (c * 32 + k) * 1024 + jj`
  is a bijection from 2 × 32 × 1024 onto the columns); and for a target word below 65536 the word comparison
  the kernel makes is the comparison of column numbers. So the merged walks are the reference's loss.
-/
import proofs.«420116_j37349035606124_2_alg».proof.Proof.Rows
import proofs.«420116_j37349035606124_2_alg».proof.Proof.StreamLaws

noncomputable section

namespace Cert.Rows

open Idealize.ShloMosaic Idealize.ShloMosaic.ValueIdx Cert.Stream

/-- A finite sum of reals, read in the extended reals, is the sum of the summands read there. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Core, block and position number the columns without repeats and without gaps: from
    `(c * 32 + k) * 1024 + jj = (c' * 32 + k') * 1024 + jj'` with `jj, jj' < 1024` and `k, k' < 32` the three
    coordinates agree, and there are `2 * 32 * 1024 = 65536` triples. -/
theorem colOf_bijective :
    Function.Bijective (fun x : Fin 2 × Fin (31 + 1) × Fin 1024 => colOf x.1 x.2.1.val x.2.2) := by
  rw [Fintype.bijective_iff_injective_and_card]
  refine ⟨?_, by simp⟩
  rintro ⟨c, k, j⟩ ⟨c', k', j'⟩ h
  have h' : (c.val * 32 + k.val % 32) * 1024 + j.val = (c'.val * 32 + k'.val % 32) * 1024 + j'.val :=
    congrArg Fin.val h
  have h1 := c.isLt; have h2 := c'.isLt; have h3 := k.isLt; have h4 := k'.isLt
  have h5 := j.isLt; have h6 := j'.isLt
  have hc : c = c' := Fin.ext (by omega)
  have hk : k = k' := Fin.ext (by omega)
  have hj : j = j' := Fin.ext (by omega)
  rw [hc, hk, hj]

/-- For a target word below 65536 the kernel's comparison of 32-bit words is the comparison of column
    numbers: a column number is below `2^32`, so its word determines it. -/
theorem blkHit_iff (tg : IVec SRow 32) (b : Fin 256) (hT : (tg (ix1 b)).toNat < 65536) (c : Fin 2) (k : ℕ)
    (j : Fin 1024) :
    blkHit tg c b k j ↔ colOf c k j = ⟨(tg (ix1 b)).toNat % 65536, Nat.mod_lt _ (by norm_num)⟩ := by
  unfold blkHit
  have hlt : (colOf c k j).val < 2 ^ 32 := lt_trans (colOf c k j).isLt (by norm_num)
  constructor
  · intro h
    apply Fin.ext
    have h' := congrArg BitVec.toNat h
    rw [BitVec.toNat_ofNat, Nat.mod_eq_of_lt hlt] at h'
    show (colOf c k j).val = (tg (ix1 b)).toNat % 65536
    rw [Nat.mod_eq_of_lt hT]; exact h'
  · intro h
    have h' : (colOf c k j).val = (tg (ix1 b)).toNat := by
      have := congrArg Fin.val h
      simpa [Nat.mod_eq_of_lt hT] using this
    apply BitVec.eq_of_toNat_eq
    rw [BitVec.toNat_ofNat, h']
    exact Nat.mod_eq_of_lt (tg (ix1 b)).isLt

theorem rows_eq (X : FVec Ideal SIn .f32) (B : FVec Ideal SBank .f32) (tg : IVec SRow 32)
    (hX : ∀ (b : Fin 256) (k : Fin 2048), ∃ r : ℝ, X (ix2 b k) = (r : EReal))
    (hB : ∀ (j : Fin 65536) (k : Fin 2048), ∃ r : ℝ, B (ix2 j k) = (r : EReal))
    (hT : ∀ b : Fin 256, (tg (ix1 b)).toNat < 65536) (b : Fin 256) :
    kernelRow X B tg b = refRow X B tg b := by
  choose xr hxr using hX
  choose br hbr using hB
  -- every logit of the row is a real number
  have hlogit : ∀ j : Fin 65536,
      logit X B b j = (((∑ k : Fin 2048, xr b k * br j k) * (268435456 / 13421773) : ℝ) : EReal) := by
    intro j
    unfold logit invTemp
    rw [EReal.coe_mul, coe_sum]
    refine congrArg (· * _) (Finset.sum_congr rfl fun k _ => ?_)
    rw [hxr, hbr, EReal.coe_mul]
  have hblk : ∀ c : Fin 2, blkLogit X B c b
      = fun k jj => (((∑ kk : Fin 2048, xr b kk * br (colOf c k jj) kk) * (268435456 / 13421773) : ℝ) : EReal) := by
    intro c; funext k jj; exact hlogit _
  have hall : (fun j => logit X B b j)
      = fun j => (((∑ k : Fin 2048, xr b k * br j k) * (268435456 / 13421773) : ℝ) : EReal) := funext hlogit
  unfold kernelRow refRow coreState
  rw [hblk 0, hblk 1, hall]
  exact merged_eq_direct (n := 1024) (N := 65536) (by norm_num) 31
    (fun j => (∑ k : Fin 2048, xr b k * br j k) * (268435456 / 13421773)) _ colOf colOf_bijective
    (fun c => blkHit tg c b) (fun c k j _ => blkHit_iff tg b (hT b) c k j)

end Cert.Rows

end
-- ==== Proof.lean ====
/-
  The certificate: a streamed cross entropy equals the reference's.

  Both programs normalise the 256 rows of `inputs`, take each row's similarity with each of the 65536 rows
  of the bank, scale by the reciprocal temperature, and average the rows' cross-entropy losses against the
  target columns. The reference materialises the whole logit matrix and divides it by the temperature word
  `13421773 / 2^28`; the kernel multiplies by a constant NAMED as that word's reciprocal `2^28 / 13421773` — the
  same number —, never holds a whole row of logits, and instead walks each half of the bank in 32 blocks per
  core with a running maximum, a running sum of exponentials rescaled whenever the maximum moves, and the
  target's logit picked up on the way; the host merges the two halves.

  The claim is made for inputs on which the reference itself is defined: finite entries, every row of
  `inputs` with a positive sum of squares (the reference divides by its square root), every target a column
  number in `[0, 65536)`. There every logit is a real number, and over the reals the walk's sum is
  `∑ exp (s - M)` for the maximum `M` so far because `exp (s - M) * exp (M - M') = exp (s - M')` (Proof/StreamLaws),
  so row by row the merged walks are the reference's `-((s t - M) - log ∑ exp (s - M))` (Proof/RowsEq).

  The pieces: Proof/KRun (the kernel's program ends at the mean of the merged walks: Proof/KPieces, KPay,
  KInv below it), Proof/RefRunBy and Proof/RefValue (the reference ends at the mean of its rows' losses),
  Proof/PreFacts (what the precondition gives). The three frames are the generated ones; the one rewrite of
  the idealization, the named constant, is its rule's statement.
-/
import proofs.«420116_j37349035606124_2_alg».proof.Defs
import proofs.«420116_j37349035606124_2_alg».proof.Proof.Gen.Kernel
import proofs.«420116_j37349035606124_2_alg».proof.Proof.Gen.Kernel.Frame
import proofs.«420116_j37349035606124_2_alg».proof.Proof.Gen.KernelIdeal
import proofs.«420116_j37349035606124_2_alg».proof.Proof.Gen.KernelIdeal.Frame
import proofs.«420116_j37349035606124_2_alg».proof.Proof.Gen.ReferenceIdeal
import proofs.«420116_j37349035606124_2_alg».proof.Proof.Gen.Pre_finite_inputs
import proofs.«420116_j37349035606124_2_alg».proof.Proof.KRun
import proofs.«420116_j37349035606124_2_alg».proof.Proof.RefRunBy
import proofs.«420116_j37349035606124_2_alg».proof.Proof.RefValue
import proofs.«420116_j37349035606124_2_alg».proof.Proof.PreFacts
import proofs.«420116_j37349035606124_2_alg».proof.Proof.RowsEq
import Idealize.ShloMosaic.Adequacy
import Idealize.ShloMosaic.Init

noncomputable section

namespace Cert.Proof

open Idealize.ShloMosaic Idealize.ShloMosaic.TcCoe Idealize.SL.Sem Cert.Rows

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result's value dropped. -/
theorem frame_referenceIdeal : Cert.frame_ReferenceIdeal := fun m ρ _ =>
  (θ_run Cert.ReferenceIdeal.defs _ _).mono (fun _ h c => (h c).2) (Cert.ReferenceIdeal.RunBy.run (F := Ideal) m ρ)

/-- The idealization's one rewrite: the constant `20.0` of the kernel body is named, and its name denotes
    `2^28 / 13421773`, the reciprocal of the reference's temperature word. -/
theorem preserves : Cert.preserves_Kernel_KernelIdeal :=
  IdealRules.named_const.statement Cert.KernelIdeal.κ "inv_temp" .f32 0x41A00000#32 ((268435456 / 13421773 : ℝ) : EReal) rfl

/-- Both idealized programs, run from memories that agree on the arguments, end at the mean of the same 256
    per-row losses: the kernel at the merged walks, the reference at its direct formula, equal row by row where
    the precondition holds. -/
theorem algebraic : Cert.algebraic_KernelIdeal_ReferenceIdeal := by
  intro m ρ m' ρ' hpre hagree
  refine ⟨_, Cert.KernelIdeal.KRun.kernel_run m ρ, ?_⟩
  refine (θ_run Cert.ReferenceIdeal.defs _ _).mono (fun _ h c => ⟨(h c).1.trans ?_, (h c).2⟩)
    (Cert.ReferenceIdeal.RunBy.run (F := Ideal) m' ρ')
  rw [(hagree c).1, (hagree c).2.1, (hagree c).2.2.2]
  obtain ⟨hX, hB, hT⟩ := Cert.PreFacts.of_pre _ _ _ _ (hpre c)
  rw [Cert.ReferenceIdeal.RefValue.val_eq _ _ _ hT]
  exact congrArg meanLoss (funext fun i => (rows_eq _ _ _ hX hB hT (rowOf i)).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
